-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128 : Shape := ⟨2, ![16, 128]⟩
abbrev S16x128x128 : Shape := ⟨3, ![16, 128, 128]⟩
abbrev S16 : Shape := ⟨1, ![16]⟩
abbrev S1x128 : Shape := ⟨2, ![1, 128]⟩
abbrev S128 : Shape := ⟨1, ![128]⟩
abbrev S128x128 : Shape := ⟨2, ![128, 128]⟩
abbrev S_ : Shape := ⟨0, ![]⟩

class Facts : Prop where
  bcast_S_S16x128 : S_.BroadcastsInDim S16x128 (![] : Fin 0 → Fin S16x128.rank)
  reducesTo_S16x128_S_d0_1 : S16x128.ReducesTo [0, 1] S_
  h_S_ : 0 < S_.numel
  bcast_S_S16x128x128 : S_.BroadcastsInDim S16x128x128 (![] : Fin 0 → Fin S16x128x128.rank)
  reducesTo_S16x128x128_S_d0_1_2 : S16x128x128.ReducesTo [0, 1, 2] S_
  bcast_S_S16 : S_.BroadcastsInDim S16 (![] : Fin 0 → Fin S16.rank)
  reducesTo_S16_S_d0 : S16.ReducesTo [0] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg4 : IVec S16x128 32) (main_arg16 : FVec F S1x128 .f32) (main_arg17 : FVec F S128 .f32) (main_v63 : IVec S_ 1) (main_v67 : IVec S_ 1) : IVec S_ 1 :=
  let main_v68 : IVec S_ 1 := andi main_v63 main_v67
  let main_v69 : FVec F S1x128 .f32 := Host.absf main_arg16
  let main_cst_26 : FVec F S_ .f32 := constant S_ .f32 0x7F800000#32
  let main_v70 : FVec F S1x128 .f32 := broadcastInDim S1x128 ![] bcast_S_S1x128 main_cst_26
  let main_v71 : IVec S1x128 1 := cmpf .olt main_v69 main_v70
  let main_c_27 : IVec S_ 1 := constantI S_ 1 1#1
  let main_v72 : IVec S_ 1 := (fun x v => Host.reduce IntOp.andi x v reducesTo_S1x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S16x128 32 := broadcastInDim S16x128 ![] bcast_S_S16x128 main_c_30
  let main_v80 : IVec S16x128 1 := cmpi .sge main_arg4 main_v79
  let main_c_31 : IVec S_ 32 := constantI S_ 32 128#32
  let main_v81 : IVec S16x128 32 := broadcastInDim S16x128 ![] bcast_S_S16x128 main_c_31
  let main_v82 : IVec S16x128 1 := cmpi .slt main_arg4 main_v81
  let main_v83 : IVec S16x128 1 := andi main_v80 main_v82
  let main_c_32 : IVec S_ 1 := constantI S_ 1 1#1
  let main_v84 : IVec S_ 1 := (fun x v => Host.reduce IntOp.andi x v reducesTo_S16x128_S_d0_1 h_S_) main_v83 main_c_32
  fn_part5 (F := F) main_v78 main_v84

def fn_part3 {F : FTy → Type} [FloatOps F] (main_arg4 : IVec S16x128 32) (main_arg13 : FVec F S128 .f32) (main_arg14 : FVec F S128x128 .f32) (main_arg15 : FVec F S128 .f32) (main_arg16 : FVec F S1x128 .f32) (main_arg17 : FVec F S128 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg4 main_arg16 main_arg17 main_v63 main_v67

def fn_part2 {F : FTy → Type} [FloatOps F] (main_arg4 : IVec S16x128 32) (main_arg9 : FVec F S128 .f32) (main_arg10 : FVec F S1x128 .f32) (main_arg11 : FVec F S128 .f32) (main_arg12 : FVec F S1x128 .f32) (main_arg13 : FVec F S128 .f32) (main_arg14 : FVec F S128x128 .f32) (main_arg15 : FVec F S128 .f32) (main_arg16 : FVec F S1x128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x128 .f32 := Host.absf main_arg12
  let main_cst_18 : FVec F S_ .f32 := constant S_ .f32 0x7F800000#32
  let main_v50 : FVec F S1x128 .f32 := broadcastInDim S1x128 ![] bcast_S_S1x128 main_cst_18
  fn_part3 (F := F) main_arg4 main_arg13 main_arg14 main_arg15 main_arg16 main_arg17 main_v48 main_v49 main_v50

def fn_part1 {F : FTy → Type} [FloatOps F] (main_arg4 : IVec S16x128 32) (main_arg6 : FVec F S1x128 .f32) (main_arg7 : FVec F S128 .f32) (main_arg8 : FVec F S1x128 .f32) (main_arg9 : FVec F S128 .f32) (main_arg10 : FVec F S1x128 .f32) (main_arg11 : FVec F S128 .f32) (main_arg12 : FVec F S1x128 .f32) (main_arg13 : FVec F S128 .f32) (main_arg14 : FVec F S128x128 .f32) (main_arg15 : FVec F S128 .f32) (main_arg16 : FVec F S1x128 .f32) (main_arg17 : FVec F S128 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1x128 .f32 := Host.absf main_arg8
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg4 main_arg9 main_arg10 main_arg11 main_arg12 main_arg13 main_arg14 main_arg15 main_arg16 main_arg17 main_v33

def fn {F : FTy → Type} [FloatOps F] (main_arg0 : FVec F S16x128 .f32) (main_arg1 : FVec F S16x128 .f32) (main_arg2 : FVec F S16x128x128 .f32) (main_arg3 : IVec S16x128x128 32) (main_arg4 : IVec S16x128 32) (main_arg5 : FVec F S16 .f32) (main_arg6 : FVec F S1x128 .f32) (main_arg7 : FVec F S128 .f32) (main_arg8 : FVec F S1x128 .f32) (main_arg9 : FVec F S128 .f32) (main_arg10 : FVec F S1x128 .f32) (main_arg11 : FVec F S128 .f32) (main_arg12 : FVec F S1x128 .f32) (main_arg13 : FVec F S128 .f32) (main_arg14 : FVec F S128x128 .f32) (main_arg15 : FVec F S128 .f32) (main_arg16 : FVec F S1x128 .f32) (main_arg17 : FVec F S128 .f32) : IVec S_ 1 :=
  let main_v0 : FVec F S16x128 .f32 := Host.absf main_arg0
  let main_cst : FVec F S_ .f32 := constant S_ .f32 0x7F800000#32
  let main_v1 : FVec F S16x128 .f32 := broadcastInDim S16x128 ![] bcast_S_S16x128 main_cst
  let main_v2 : IVec S16x128 1 := cmpf .olt main_v0 main_v1
  let main_c : IVec S_ 1 := constantI S_ 1 1#1
  let main_v3 : IVec S_ 1 := (fun x v => Host.reduce IntOp.andi x v reducesTo_S16x128_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16x128x128 .f32 := Host.absf main_arg2
  let main_cst_2 : FVec F S_ .f32 := constant S_ .f32 0x7F800000#32
  let main_v10 : FVec F S16x128x128 .f32 := broadcastInDim S16x128x128 ![] bcast_S_S16x128x128 main_cst_2
  let main_v11 : IVec S16x128x128 1 := cmpf .olt main_v9 main_v10
  let main_c_3 : IVec S_ 1 := constantI S_ 1 1#1
  let main_v12 : IVec S_ 1 := (fun x v => Host.reduce IntOp.andi x v reducesTo_S16x128x128_S_d0_1_2 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg6 main_arg7 main_arg8 main_arg9 main_arg10 main_arg11 main_arg12 main_arg13 main_arg14 main_arg15 main_arg16 main_arg17 main_v13 main_v16
-- ==== Kernel.lean ====
abbrev S16x128 : Shape := ⟨2, ![16, 128]⟩
abbrev S16x128x128 : Shape := ⟨3, ![16, 128, 128]⟩
abbrev S16 : Shape := ⟨1, ![16]⟩
abbrev S1x128 : Shape := ⟨2, ![1, 128]⟩
abbrev S128 : Shape := ⟨1, ![128]⟩
abbrev S128x128 : Shape := ⟨2, ![128, 128]⟩
abbrev S_ : Shape := ⟨0, ![]⟩
abbrev S16x128x128x128 : Shape := ⟨4, ![16, 128, 128, 128]⟩
abbrev S1x128x128 : Shape := ⟨3, ![1, 128, 128]⟩
abbrev S1x128x128x128 : Shape := ⟨4, ![1, 128, 128, 128]⟩
abbrev S128x1 : Shape := ⟨2, ![128, 1]⟩
abbrev S1x32x128 : Shape := ⟨3, ![1, 32, 128]⟩
abbrev S32x128 : Shape := ⟨2, ![32, 128]⟩
abbrev S32x128x1 : Shape := ⟨3, ![32, 128, 1]⟩
abbrev S1x1x128 : Shape := ⟨3, ![1, 1, 128]⟩
abbrev S32x128x128 : Shape := ⟨3, ![32, 128, 128]⟩
abbrev S1x32x128x128 : Shape := ⟨4, ![1, 32, 128, 128]⟩
abbrev S16x1 : Shape := ⟨2, ![16, 1]⟩

abbrev nBuf : Space → Nat
  | .hbm => 38
  | .vmem => 23
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128x128, .f32⟩
  | .hbm, ⟨3, _⟩ => ⟨S16x128x128, .i32⟩
  | .hbm, ⟨4, _⟩ => ⟨S16x128, .i32⟩
  | .hbm, ⟨5, _⟩ => ⟨S16, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x128, .f32⟩
  | .hbm, ⟨17, _⟩ => ⟨S128, .f32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S16x128, .i32⟩
  | .hbm, ⟨22, _⟩ => ⟨S16x128, .i32⟩
  | .hbm, ⟨23, _⟩ => ⟨S_, .i32⟩
  | .hbm, ⟨24, _⟩ => ⟨S16x128, .i32⟩
  | .hbm, ⟨25, _⟩ => ⟨S16x128, .i32⟩
  | .hbm, ⟨26, _⟩ => ⟨S16x128x128, .f32⟩
  | .hbm, ⟨27, _⟩ => ⟨S16x128x128x128, .f32⟩
  | .hbm, ⟨28, _⟩ => ⟨S16x128x128, .f32⟩
  | .hbm, ⟨29, _⟩ => ⟨S16x1, .f32⟩
  | .hbm, ⟨30, _⟩ => ⟨S128, .f32⟩
  | .hbm, ⟨31, _⟩ => ⟨S1x128, .f32⟩
  | .hbm, ⟨32, _⟩ => ⟨S16x128, .f32⟩
  | .hbm, ⟨33, _⟩ => ⟨S16x128, .f32⟩
  | .hbm, ⟨34, _⟩ => ⟨S16x128, .f32⟩
  | .hbm, ⟨35, _⟩ => ⟨S1x128, .f32⟩
  | .hbm, ⟨36, _⟩ => ⟨S16x128, .f32⟩
  | .hbm, ⟨37, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .i32⟩
  | .local _ .vmem, ⟨3, _⟩ => ⟨S1x128x128, .f32⟩
  | .local _ .vmem, ⟨4, _⟩ => ⟨S1x128x128, .f32⟩
  | .local _ .vmem, ⟨5, _⟩ => ⟨S1x128x128, .i32⟩
  | .local _ .vmem, ⟨6, _⟩ => ⟨S1x128x128, .i32⟩
  | .local _ .vmem, ⟨7, _⟩ => ⟨S1x128, .f32⟩
  | .local _ .vmem, ⟨8, _⟩ => ⟨S128, .f32⟩
  | .local _ .vmem, ⟨9, _⟩ => ⟨S1x128, .f32⟩
  | .local _ .vmem, ⟨10, _⟩ => ⟨S128, .f32⟩
  | .local _ .vmem, ⟨11, _⟩ => ⟨S1x128, .f32⟩
  | .local _ .vmem, ⟨12, _⟩ => ⟨S128, .f32⟩
  | .local _ .vmem, ⟨13, _⟩ => ⟨S1x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S1x128x128, .f32⟩
  | .local _ .vmem, ⟨18, _⟩ => ⟨S1x128x128, .f32⟩
  | .local _ .vmem, ⟨19, _⟩ => ⟨S1x128x128x128, .f32⟩
  | .local _ .vmem, ⟨20, _⟩ => ⟨S1x128x128x128, .f32⟩
  | .local _ .vmem, ⟨21, _⟩ => ⟨S1x128x128, .f32⟩
  | .local _ .vmem, ⟨22, _⟩ => ⟨S1x128x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v0 : Ref sig .tc := ⟨.hbm, 25, rfl⟩
abbrev main_v1_0 : Ref sig .tc := ⟨.hbm, 26, rfl⟩
abbrev main_v1_1 : Ref sig .tc := ⟨.hbm, 27, rfl⟩
abbrev main_v1_2 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_mult1 : BitVec 32 :=
  let c0_i32 : BitVec 32 := 0#32
  let c32_i32 : BitVec 32 := 32#32
  let v84 : BitVec 32 := Scalar.muli c0_i32 c32_i32
  v84
def k0_off2 (c0_i32 : BitVec 32) : Fin 3 → Nat :=
  let c0_29 : Index := 0#32
  let c32_i32 : BitVec 32 := 32#32
  let v84 : BitVec 32 := Scalar.muli c0_i32 c32_i32
  let v85 : BitVec 32 := v84
  let v86 : Index := Scalar.indexCast v85
  let c0_30 : Index := 0#32
  ![0, v86.toNat, 0]
def k0_off3 (c0_i32 : BitVec 32) : Fin 4 → Nat :=
  let c0_33 : Index := 0#32
  let c32_i32 : BitVec 32 := 32#32
  let v84 : BitVec 32 := Scalar.muli c0_i32 c32_i32
  let v85 : BitVec 32 := v84
  let v110 : Index := Scalar.indexCast v85
  let c0_34 : Index := 0#32
  let c0_35 : Index := 0#32
  ![0, v110.toNat, 0, 0]
def k0_mult2 : BitVec 32 :=
  let c1_i32 : BitVec 32 := 1#32
  let c32_i32_36 : BitVec 32 := 32#32
  let v114 : BitVec 32 := Scalar.muli c1_i32 c32_i32_36
  v114
def k0_mult3 : BitVec 32 :=
  let c2_i32 : BitVec 32 := 2#32
  let c32_i32_44 : BitVec 32 := 32#32
  let v144 : BitVec 32 := Scalar.muli c2_i32 c32_i32_44
  v144
def k0_mult4 : BitVec 32 :=
  let c3_i32 : BitVec 32 := 3#32
  let c32_i32_52 : BitVec 32 := 32#32
  let v174 : BitVec 32 := Scalar.muli c3_i32 c32_i32_52
  v174
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S16x128 : S_.BroadcastsInDim S16x128 (![] : Fin 0 → Fin S16x128.rank)
  h_S1x128 : 0 < S1x128.numel
  shapeCasts_S1x128_S128 : S1x128.ShapeCasts S128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  iota_S128x128_d1_w32 : S128x128.Iotas .tc 32 [1]
  shapeCasts_S128_S128x1 : S128.ShapeCasts S128x1
  broadcasts_S128x1_S128x128 : S128x1.Broadcasts S128x128
  natLt_1_32 : 1 < 32
  bitsLt_bf16_f32 : FTy.bits .bf16 < FTy.bits .f32
  shapeCasts_S128_S1x128 : S128.ShapeCasts S1x128
  broadcasts_S1x128_S128x128 : S1x128.Broadcasts S128x128
  shapeCasts_S128x128_S1x128x128 : S128x128.ShapeCasts S1x128x128
  iota_S128x128_d0_w32 : S128x128.Iotas .tc 32 [0]
  transposes_S128x128_p1_0_S128x128 : S128x128.Transposes [1, 0] S128x128
  h_S1x32x128 : 0 < S1x32x128.numel
  shapeCasts_S1x32x128_S32x128 : S1x32x128.ShapeCasts S32x128
  shapeCasts_S32x128_S32x128x1 : S32x128.ShapeCasts S32x128x1
  shapeCasts_S128_S1x1x128 : S128.ShapeCasts S1x1x128
  broadcasts_S32x128x1_S32x128x128 : S32x128x1.Broadcasts S32x128x128
  broadcasts_S1x1x128_S32x128x128 : S1x1x128.Broadcasts S32x128x128
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  bcast_S16_S16x1_0 : S16.BroadcastsInDim S16x1 (![0] : Fin 1 → Fin S16x1.rank)
  bcast_S128_S1x128_1 : S128.BroadcastsInDim S1x128 (![1] : Fin 1 → Fin S1x128.rank)
  bcast_S16x1_S16x128_0_1 : S16x1.BroadcastsInDim S16x128 (![0, 1] : Fin 2 → Fin S16x128.rank)
  bcast_S1x128_S16x128_0_1 : S1x128.BroadcastsInDim S16x128 (![0, 1] : Fin 2 → Fin S16x128.rank)
  dot_S128x128_S128x128_S128x128_1_0_0_1_n_n_wf : DotDims.WF S128x128 S128x128 S128x128 [1] [0] [0] [1] [] []
  hrank0 : 0 < grid0.rank
  k0_off1_inb : ∀ i : grid0.Coords, ∀ a, (k0_off1 i) a + S1x128.size a ≤ S16x128.size a
  k0_mult1_dvd : 32 ∣ k0_mult1.toNat
  k0_off2_inb : ∀ (r : Fin 4), ∀ a, (k0_off2 (BitVec.ofNat 32 r.val)) a + S1x32x128.size a ≤ S1x128x128.size a
  k0_off3_inb : ∀ (r : Fin 4), ∀ a, (k0_off3 (BitVec.ofNat 32 r.val)) a + S1x32x128x128.size a ≤ S1x128x128x128.size a
  k0_mult2_dvd : 32 ∣ k0_mult2.toNat
  k0_mult3_dvd : 32 ∣ k0_mult3.toNat
  k0_mult4_dvd : 32 ∣ k0_mult4.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S16x128.size a
  hwx0_0 : ∀ i : grid0.Coords, EltTy.bits .f32 = 32 ∨ (Rect.block (s := S16x128) S16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .i32 = 32 ∨ (Rect.block (s := S16x128) S16x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S16x128x128.size a
  hwx0_3 : ∀ i : grid0.Coords, EltTy.bits .f32 = 32 ∨ (Rect.block (s := S16x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S16x128x128.size a
  hwx0_4 : ∀ i : grid0.Coords, EltTy.bits .i32 = 32 ∨ (Rect.block (s := S16x128x128) S1x128x128.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x128x128.size a ≤ S16x128x128.size a
  hwx0_15 : ∀ i : grid0.Coords, EltTy.bits .f32 = 32 ∨ (Rect.block (s := S16x128x128) S1x128x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128x128x128.size a ≤ S16x128x128x128.size a
  hwx0_16 : ∀ i : grid0.Coords, EltTy.bits .f32 = 32 ∨ (Rect.block (s := S16x128x128x128) S1x128x128x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x128x128.size a ≤ S16x128x128.size a
  hwx0_17 : ∀ i : grid0.Coords, EltTy.bits .f32 = 32 ∨ (Rect.block (s := S16x128x128) S1x128x128.size (cc0_transform_17 i) (hinb0_17 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S16x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v1_0) S1x128x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v1_1) S1x128x128x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v1_2) S1x128x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16x128 : Shape := ⟨2, ![16, 128]⟩
abbrev S16x128x128 : Shape := ⟨3, ![16, 128, 128]⟩
abbrev S16 : Shape := ⟨1, ![16]⟩
abbrev S1x128 : Shape := ⟨2, ![1, 128]⟩
abbrev S128 : Shape := ⟨1, ![128]⟩
abbrev S128x128 : Shape := ⟨2, ![128, 128]⟩
abbrev S16x128x1 : Shape := ⟨3, ![16, 128, 1]⟩
abbrev S1x1x128 : Shape := ⟨3, ![1, 1, 128]⟩
abbrev S_ : Shape := ⟨0, ![]⟩
abbrev S16x128x128x1 : Shape := ⟨4, ![16, 128, 128, 1]⟩
abbrev S1x1x1x128 : Shape := ⟨4, ![1, 1, 1, 128]⟩
abbrev S16x128x128x128 : Shape := ⟨4, ![16, 128, 128, 128]⟩
abbrev S16x1 : Shape := ⟨2, ![16, 1]⟩

abbrev nBuf : Space → Nat
  | .hbm => 111
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128x128, .f32⟩
  | .hbm, ⟨3, _⟩ => ⟨S16x128x128, .i32⟩
  | .hbm, ⟨4, _⟩ => ⟨S16x128, .i32⟩
  | .hbm, ⟨5, _⟩ => ⟨S16, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x128, .f32⟩
  | .hbm, ⟨17, _⟩ => ⟨S128, .f32⟩
  | .hbm, ⟨18, _⟩ => ⟨S16x128x128, .f32⟩
  | .hbm, ⟨19, _⟩ => ⟨S16x128x1, .f32⟩
  | .hbm, ⟨20, _⟩ => ⟨S128, .f32⟩
  | .hbm, ⟨21, _⟩ => ⟨S1x1x128, .f32⟩
  | .hbm, ⟨22, _⟩ => ⟨S16x128x128, .f32⟩
  | .hbm, ⟨23, _⟩ => ⟨S16x128x128, .f32⟩
  | .hbm, ⟨24, _⟩ => ⟨S16x128x128, .f32⟩
  | .hbm, ⟨25, _⟩ => ⟨S1x1x128, .f32⟩
  | .hbm, ⟨26, _⟩ => ⟨S16x128x128, .f32⟩
  | .hbm, ⟨27, _⟩ => ⟨S16x128x128, .f32⟩
  | .hbm, ⟨28, _⟩ => ⟨S16x128x1, .f32⟩
  | .hbm, ⟨29, _⟩ => ⟨S128, .f32⟩
  | .hbm, ⟨30, _⟩ => ⟨S1x1x128, .f32⟩
  | .hbm, ⟨31, _⟩ => ⟨S16x128x128, .f32⟩
  | .hbm, ⟨32, _⟩ => ⟨S16x128x128, .f32⟩
  | .hbm, ⟨33, _⟩ => ⟨S16x128x128, .f32⟩
  | .hbm, ⟨34, _⟩ => ⟨S16x128x128, .f32⟩
  | .hbm, ⟨35, _⟩ => ⟨S1x1x128, .f32⟩
  | .hbm, ⟨36, _⟩ => ⟨S16x128x128, .f32⟩
  | .hbm, ⟨37, _⟩ => ⟨S16x128x128, .f32⟩
  | .hbm, ⟨38, _⟩ => ⟨S_, .i32⟩
  | .hbm, ⟨39, _⟩ => ⟨S16x128, .i32⟩
  | .hbm, ⟨40, _⟩ => ⟨S16x128, .i1⟩
  | .hbm, ⟨41, _⟩ => ⟨S_, .i32⟩
  | .hbm, ⟨42, _⟩ => ⟨S16x128, .i32⟩
  | .hbm, ⟨43, _⟩ => ⟨S16x128, .i32⟩
  | .hbm, ⟨44, _⟩ => ⟨S16x128, .i32⟩
  | .hbm, ⟨45, _⟩ => ⟨S16x128x1, .i32⟩
  | .hbm, ⟨46, _⟩ => ⟨S16x128x128, .f32⟩
  | .hbm, ⟨47, _⟩ => ⟨S16x128x128, .f32⟩
  | .hbm, ⟨48, _⟩ => ⟨S1x1x128, .f32⟩
  | .hbm, ⟨49, _⟩ => ⟨S16x128x128, .f32⟩
  | .hbm, ⟨50, _⟩ => ⟨S16x128x128, .f32⟩
  | .hbm, ⟨51, _⟩ => ⟨S16x128x128x1, .f32⟩
  | .hbm, ⟨52, _⟩ => ⟨S128, .f32⟩
  | .hbm, ⟨53, _⟩ => ⟨S1x1x1x128, .f32⟩
  | .hbm, ⟨54, _⟩ => ⟨S16x128x128x128, .f32⟩
  | .hbm, ⟨55, _⟩ => ⟨S16x128x128x128, .f32⟩
  | .hbm, ⟨56, _⟩ => ⟨S16x128x128x128, .f32⟩
  | .hbm, ⟨57, _⟩ => ⟨S1x1x1x128, .f32⟩
  | .hbm, ⟨58, _⟩ => ⟨S16x128x128x128, .f32⟩
  | .hbm, ⟨59, _⟩ => ⟨S16x128x128x128, .f32⟩
  | .hbm, ⟨60, _⟩ => ⟨S16x128x128x1, .f32⟩
  | .hbm, ⟨61, _⟩ => ⟨S128, .f32⟩
  | .hbm, ⟨62, _⟩ => ⟨S1x1x1x128, .f32⟩
  | .hbm, ⟨63, _⟩ => ⟨S16x128x128x128, .f32⟩
  | .hbm, ⟨64, _⟩ => ⟨S16x128x128x128, .f32⟩
  | .hbm, ⟨65, _⟩ => ⟨S16x128x128x128, .f32⟩
  | .hbm, ⟨66, _⟩ => ⟨S16x128x128x128, .f32⟩
  | .hbm, ⟨67, _⟩ => ⟨S1x1x1x128, .f32⟩
  | .hbm, ⟨68, _⟩ => ⟨S16x128x128x128, .f32⟩
  | .hbm, ⟨69, _⟩ => ⟨S16x128x128x128, .f32⟩
  | .hbm, ⟨70, _⟩ => ⟨S16x1, .f32⟩
  | .hbm, ⟨71, _⟩ => ⟨S128, .f32⟩
  | .hbm, ⟨72, _⟩ => ⟨S1x128, .f32⟩
  | .hbm, ⟨73, _⟩ => ⟨S16x128, .f32⟩
  | .hbm, ⟨74, _⟩ => ⟨S16x128, .f32⟩
  | .hbm, ⟨75, _⟩ => ⟨S16x128, .f32⟩
  | .hbm, ⟨76, _⟩ => ⟨S1x128, .f32⟩
  | .hbm, ⟨77, _⟩ => ⟨S16x128, .f32⟩
  | .hbm, ⟨78, _⟩ => ⟨S16x128, .f32⟩
  | .hbm, ⟨79, _⟩ => ⟨S128x128, .i32⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i32⟩
  | .hbm, ⟨84, _⟩ => ⟨S128x128, .i1⟩
  | .hbm, ⟨85, _⟩ => ⟨S128x128, .f32⟩
  | .hbm, ⟨86, _⟩ => ⟨S16x128x128, .f32⟩
  | .hbm, ⟨87, _⟩ => ⟨S16x128x1, .i32⟩
  | .hbm, ⟨88, _⟩ => ⟨S1x1x128, .i32⟩
  | .hbm, ⟨89, _⟩ => ⟨S16x128x128, .i32⟩
  | .hbm, ⟨90, _⟩ => ⟨S16x128x128, .i32⟩
  | .hbm, ⟨91, _⟩ => ⟨S16x128x128, .i1⟩
  | .hbm, ⟨92, _⟩ => ⟨S16x128x128, .f32⟩
  | .hbm, ⟨93, _⟩ => ⟨S16x128x128, .f32⟩
  | .hbm, ⟨94, _⟩ => ⟨S16x128x128, .f32⟩
  | .hbm, ⟨95, _⟩ => ⟨S_, .f32⟩
  | .hbm, ⟨96, _⟩ => ⟨S16x128x128, .f32⟩
  | .hbm, ⟨97, _⟩ => ⟨S16x128x128, .i1⟩
  | .hbm, ⟨98, _⟩ => ⟨S16x128x128, .f32⟩
  | .hbm, ⟨99, _⟩ => ⟨S16x128x128, .f32⟩
  | .hbm, ⟨100, _⟩ => ⟨S16x128x128, .f32⟩
  | .hbm, ⟨101, _⟩ => ⟨S16x128x128, .f32⟩
  | .hbm, ⟨102, _⟩ => ⟨S_, .f32⟩
  | .hbm, ⟨103, _⟩ => ⟨S16x128x128, .f32⟩
  | .hbm, ⟨104, _⟩ => ⟨S16x128x128, .i1⟩
  | .hbm, ⟨105, _⟩ => ⟨S16x128x128, .f32⟩
  | .hbm, ⟨106, _⟩ => ⟨S16x128x128, .f32⟩
  | .hbm, ⟨107, _⟩ => ⟨S_, .f32⟩
  | .hbm, ⟨108, _⟩ => ⟨S16x128x128, .f32⟩
  | .hbm, ⟨109, _⟩ => ⟨S16x128x128, .i1⟩
  | .hbm, ⟨110, _⟩ => ⟨S16x128x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_1 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_2 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_3 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  bcast_S16x128_S16x128x1_0_1 : S16x128.BroadcastsInDim S16x128x1 (![0, 1] : Fin 2 → Fin S16x128x1.rank)
  shapeCasts_S1x128_S128 : S1x128.ShapeCasts S128
  bcast_S128_S1x1x128_2 : S128.BroadcastsInDim S1x1x128 (![2] : Fin 1 → Fin S1x1x128.rank)
  bcast_S16x128x1_S16x128x128_0_1_2 : S16x128x1.BroadcastsInDim S16x128x128 (![0, 1, 2] : Fin 3 → Fin S16x128x128.rank)
  bcast_S1x1x128_S16x128x128_0_1_2 : S1x1x128.BroadcastsInDim S16x128x128 (![0, 1, 2] : Fin 3 → Fin S16x128x128.rank)
  bcast_S_S16x128 : S_.BroadcastsInDim S16x128 (![] : Fin 0 → Fin S16x128.rank)
  bcast_S16x128x128_S16x128x128x1_0_1_2 : S16x128x128.BroadcastsInDim S16x128x128x1 (![0, 1, 2] : Fin 3 → Fin S16x128x128x1.rank)
  bcast_S128_S1x1x1x128_3 : S128.BroadcastsInDim S1x1x1x128 (![3] : Fin 1 → Fin S1x1x1x128.rank)
  bcast_S16x128x128x1_S16x128x128x128_0_1_2_3 : S16x128x128x1.BroadcastsInDim S16x128x128x128 (![0, 1, 2, 3] : Fin 4 → Fin S16x128x128x128.rank)
  bcast_S1x1x1x128_S16x128x128x128_0_1_2_3 : S1x1x1x128.BroadcastsInDim S16x128x128x128 (![0, 1, 2, 3] : Fin 4 → Fin S16x128x128x128.rank)
  bcast_S16_S16x1_0 : S16.BroadcastsInDim S16x1 (![0] : Fin 1 → Fin S16x1.rank)
  bcast_S128_S1x128_1 : S128.BroadcastsInDim S1x128 (![1] : Fin 1 → Fin S1x128.rank)
  bcast_S16x1_S16x128_0_1 : S16x1.BroadcastsInDim S16x128 (![0, 1] : Fin 2 → Fin S16x128.rank)
  bcast_S1x128_S16x128_0_1 : S1x128.BroadcastsInDim S16x128 (![0, 1] : Fin 2 → Fin S16x128.rank)
  bcast_S_S128x128 : S_.BroadcastsInDim S128x128 (![] : Fin 0 → Fin S128x128.rank)
  bcast_S128x128_S16x128x128_1_2 : S128x128.BroadcastsInDim S16x128x128 (![1, 2] : Fin 2 → Fin S16x128x128.rank)
  transposes_S16x128x128_S16x128x128_0_2_1 : S16x128x128.Transposes [0, 2, 1] S16x128x128
  bcast_S_S16x128x128 : S_.BroadcastsInDim S16x128x128 (![] : Fin 0 → Fin S16x128x128.rank)
  gather_S128x128_S16x128x1_S16x128x128_2_0_n_n_0_2_1128_wf : GatherDims.WF S128x128 S16x128x1 S16x128x128 [2] [0] [] [0] [] 2 ![1, 128]

variable [Facts₀]

def gather_S128x128_S16x128x1_S16x128x128_2_0_n_n_0_2_1128 : GatherDims S128x128 S16x128x1 S16x128x128 where
  offsetDims := [2]
  collapsedSliceDims := [0]
  operandBatchingDims := []
  startIndicesBatchingDims := []
  startIndexMap := [0]
  indexVectorDim := 2
  sliceSizes := ![1, 128]
  wf := gather_S128x128_S16x128x1_S16x128x128_2_0_n_n_0_2_1128_wf

class Facts : Prop extends Facts₀ where

variable [Facts]
-- ==== Proof.Spec.lean ====
/-
  What the four results are, as functions of the argument arrays, over the extended reals.

  A graph of 128 nodes per batch entry (16 entries), hidden width 128. With `row b n` the node that node `n`
  of entry `b` points to:
  * node features   `pos·Wpos + bpos + s·Ws + bs + Wpi[row] + bpi`,
  * edge features   `(A·WA + bA) + (adj·Wadj + badj)`,
  * graph features  `key·Wg + bg`,
  * the adjacency   `[0 < [i = j] + [1/2 < oh i j + oh j i] + [0 < adj i j + adj j i]]`, `oh i j = [row i = j]`.
  Everything is stated over coordinates first (`…At`), then over the arrays' index types (`…G`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- [16, 128]. -/
abbrev Sbn : Shape := ⟨2, ![16, 128]⟩
/-- [16, 128, 128]. -/
abbrev Sbnn : Shape := ⟨3, ![16, 128, 128]⟩
/-- [16, 128, 128, 128]. -/
abbrev Sbnnh : Shape := ⟨4, ![16, 128, 128, 128]⟩
/-- [1, 128]. -/
abbrev S1h : Shape := ⟨2, ![1, 128]⟩
/-- [128]. -/
abbrev Sh : Shape := ⟨1, ![128]⟩
/-- [128, 128]. -/
abbrev Snh : Shape := ⟨2, ![128, 128]⟩
/-- [16]. -/
abbrev Sb : Shape := ⟨1, ![16]⟩

/-- The node a pointer word names, as a row number of the pointer table (the word read unsigned, reduced
    into the table: the identity on a word in range). -/
def rowOf (pi : Sbn.Idx → BitVec 32) (b : Fin 16) (n : Fin 128) : Fin 128 :=
  ⟨(pi (ix2 b n)).toNat % 128, Nat.mod_lt _ (by decide)⟩

/-- A pointer word in range is the word of its row number. -/
theorem word_rowOf (pi : Sbn.Idx → BitVec 32) (b : Fin 16) (n : Fin 128) (h : (pi (ix2 b n)).toNat < 128) :
    pi (ix2 b n) = BitVec.ofNat 32 (rowOf pi b n).val := by
  apply BitVec.eq_of_toNat_eq
  simp only [rowOf, BitVec.toNat_ofNat]
  omega

/-! ## Node features -/

/-- One node feature: the two scalar fields through their one-row linear maps, the pointed-to row of the
    pointer table, and the three biases, summed left to right. -/
def nodeAt (pos s : Fin 16 → Fin 128 → EReal) (row : Fin 16 → Fin 128 → Fin 128) (Wpos bpos Ws bs : Fin 128 → EReal)
    (Wpi : Fin 128 → Fin 128 → EReal) (bpi : Fin 128 → EReal) (b : Fin 16) (n h : Fin 128) : EReal :=
  ((((pos b n * Wpos h + bpos h) + s b n * Ws h) + bs h) + Wpi (row b n) h) + bpi h

/-- The node features as an array [16, 128, 128]. -/
def nodeG (x0 x1 : Sbn.Idx → EReal) (row : Fin 16 → Fin 128 → Fin 128) (x6 : S1h.Idx → EReal) (x7 : Sh.Idx → EReal)
    (x8 : S1h.Idx → EReal) (x9 : Sh.Idx → EReal) (x14 : Snh.Idx → EReal) (x15 : Sh.Idx → EReal) : Sbnn.Idx → EReal :=
  fun i => nodeAt (fun b n => x0 (ix2 b n)) (fun b n => x1 (ix2 b n)) row (fun h => x6 (ix2 0 h)) (fun h => x7 (ix1 h))
    (fun h => x8 (ix2 0 h)) (fun h => x9 (ix1 h)) (fun r h => x14 (ix2 r h)) (fun h => x15 (ix1 h))
    ⟨(i 0).val, (i 0).isLt⟩ ⟨(i 1).val, (i 1).isLt⟩ ⟨(i 2).val, (i 2).isLt⟩

theorem nodeG_ix3 (x0 x1 : Sbn.Idx → EReal) (row : Fin 16 → Fin 128 → Fin 128) (x6 : S1h.Idx → EReal) (x7 : Sh.Idx → EReal)
    (x8 : S1h.Idx → EReal) (x9 : Sh.Idx → EReal) (x14 : Snh.Idx → EReal) (x15 : Sh.Idx → EReal) (b : Fin 16) (n h : Fin 128) :
    nodeG x0 x1 row x6 x7 x8 x9 x14 x15 (ix3 b n h)
      = ((((x0 (ix2 b n) * x6 (ix2 0 h) + x7 (ix1 h)) + x1 (ix2 b n) * x8 (ix2 0 h)) + x9 (ix1 h)) + x14 (ix2 (row b n) h))
        + x15 (ix1 h) := rfl

/-! ## Edge features -/

/-- One edge feature: the edge scalar and the edge mask (an integer, read signed) through their one-row
    linear maps, each with its bias. -/
def edgeAt (A : Fin 16 → Fin 128 → Fin 128 → EReal) (adj : Fin 16 → Fin 128 → Fin 128 → BitVec 32)
    (WA bA Wadj badj : Fin 128 → EReal) (b : Fin 16) (i j h : Fin 128) : EReal :=
  (A b i j * WA h + bA h) + ((((adj b i j).toInt : ℝ) : EReal) * Wadj h + badj h)

/-- The edge features as an array [16, 128, 128, 128]. -/
def edgeG (x2 : Sbnn.Idx → EReal) (x3 : Sbnn.Idx → BitVec 32) (x10 : S1h.Idx → EReal) (x11 : Sh.Idx → EReal)
    (x12 : S1h.Idx → EReal) (x13 : Sh.Idx → EReal) : Sbnnh.Idx → EReal :=
  fun i => edgeAt (fun b p q => x2 (ix3 b p q)) (fun b p q => x3 (ix3 b p q)) (fun h => x10 (ix2 0 h)) (fun h => x11 (ix1 h))
    (fun h => x12 (ix2 0 h)) (fun h => x13 (ix1 h))
    ⟨(i 0).val, (i 0).isLt⟩ ⟨(i 1).val, (i 1).isLt⟩ ⟨(i 2).val, (i 2).isLt⟩ ⟨(i 3).val, (i 3).isLt⟩

theorem edgeG_ix4 (x2 : Sbnn.Idx → EReal) (x3 : Sbnn.Idx → BitVec 32) (x10 : S1h.Idx → EReal) (x11 : Sh.Idx → EReal)
    (x12 : S1h.Idx → EReal) (x13 : Sh.Idx → EReal) (b : Fin 16) (p q h : Fin 128) :
    edgeG x2 x3 x10 x11 x12 x13 (ix4 b p q h)
      = (x2 (ix3 b p q) * x10 (ix2 0 h) + x11 (ix1 h))
        + ((((x3 (ix3 b p q)).toInt : ℝ) : EReal) * x12 (ix2 0 h) + x13 (ix1 h)) := rfl

/-! ## Graph features -/

/-- The graph features as an array [16, 128]: the graph scalar through its one-row linear map. -/
def graphG (x5 : Sb.Idx → EReal) (x16 : S1h.Idx → EReal) (x17 : Sh.Idx → EReal) : Sbn.Idx → EReal :=
  fun i => x5 (ix1 ⟨(i 0).val, (i 0).isLt⟩) * x16 (ix2 0 ⟨(i 1).val, (i 1).isLt⟩) + x17 (ix1 ⟨(i 1).val, (i 1).isLt⟩)

theorem graphG_ix2 (x5 : Sb.Idx → EReal) (x16 : S1h.Idx → EReal) (x17 : Sh.Idx → EReal) (b : Fin 16) (h : Fin 128) :
    graphG x5 x16 x17 (ix2 b h) = x5 (ix1 b) * x16 (ix2 0 h) + x17 (ix1 h) := rfl

/-! ## The adjacency -/

/-- A truth value as an extended real. -/
def ind (p : Prop) [Decidable p] : EReal := if p then 1 else 0

/-- A one-bit word as an extended real. -/
def bitE (w : BitVec 1) : EReal := ((w.toNat : ℝ) : EReal)

theorem bitE_one : bitE 1#1 = 1 := by simp [bitE]
theorem bitE_zero : bitE 0#1 = 0 := by simp [bitE]

/-- A one-bit word widened without sign and read signed is the bit. -/
theorem toInt_setWidth_bit (w : BitVec 1) : (((w.setWidth 32).toInt : ℝ) : EReal) = bitE w := by
  rcases (by decide : ∀ w : BitVec 1, w = 0#1 ∨ w = 1#1) w with rfl | rfl
  · simp [bitE]
  · simp [bitE]

/-- The word comparison of two small numbers is their equality. -/
theorem bitE_cmpi_eq (a b : Fin 128) :
    bitE (IntOp.cmpi .eq (BitVec.ofNat 32 a.val) (BitVec.ofNat 32 b.val)) = ind (a = b) := by
  unfold ind
  by_cases h : a = b
  · subst h; rw [if_pos rfl]; simp [IntOp.cmpi, bitE]
  · rw [if_neg h]
    have hne : BitVec.ofNat 32 a.val ≠ BitVec.ofNat 32 b.val := by
      intro e
      have := congrArg BitVec.toNat e
      simp only [BitVec.toNat_ofNat] at this
      have ha := a.isLt; have hb := b.isLt
      exact h (Fin.ext (by omega))
    simp [IntOp.cmpi, bitE, hne]

/-- One adjacency entry: the diagonal, the pointer relation made symmetric, the edge mask made
    symmetric, each an indicator, summed; the entry is 1 where the sum is positive. -/
def adjAt (adj : Fin 16 → Fin 128 → Fin 128 → BitVec 32) (row : Fin 16 → Fin 128 → Fin 128) (b : Fin 16) (i j : Fin 128) : EReal :=
  bitE (Ideal.cmp .ogt
    ((ind (i = j)
        + bitE (Ideal.cmp .ogt (ind (row b i = j) + ind (row b j = i)) (Ideal.ofBits .f32 0x3F000000#32)))
      + bitE (Ideal.cmp .ogt ((((adj b i j).toInt : ℝ) : EReal) + (((adj b j i).toInt : ℝ) : EReal)) (Ideal.ofBits .f32 0x00000000#32)))
    (Ideal.ofBits .f32 0x00000000#32))

/-- The adjacency as an array [16, 128, 128]. -/
def adjG (x3 : Sbnn.Idx → BitVec 32) (row : Fin 16 → Fin 128 → Fin 128) : Sbnn.Idx → EReal :=
  fun i => adjAt (fun b p q => x3 (ix3 b p q)) row ⟨(i 0).val, (i 0).isLt⟩ ⟨(i 1).val, (i 1).isLt⟩ ⟨(i 2).val, (i 2).isLt⟩

theorem adjG_ix3 (x3 : Sbnn.Idx → BitVec 32) (row : Fin 16 → Fin 128 → Fin 128) (b : Fin 16) (i j : Fin 128) :
    adjG x3 row (ix3 b i j) = adjAt (fun b p q => x3 (ix3 b p q)) row b i j := rfl

end Cert.Spec

end
-- ==== Proof.PreDecode.lean ====
/-
  The precondition, read at the pointer words: beside the finiteness of the float inputs it says that every
  pointer word is at least 0 and below 128 as a signed integer, so its unsigned value is below 128 and it is the
  word of a row number of the pointer table.
-/
import proofs.«404626_j31421980738061_3_alg».proof.Pre_finite_inputs
import proofs.«404626_j31421980738061_3_alg».proof.Proof.Gen.Pre_finite_inputs
import proofs.«404626_j31421980738061_3_alg».proof.Proof.Spec
import Idealize.ShloMosaic.Lib.Affine
import Idealize.ShloMosaic.Lib.ReduceAll
import Idealize.ShloMosaic.Lib.ValueIdx

set_option maxRecDepth 16384

noncomputable section

namespace Cert.Pre_finite_inputs.Decode

open Cert.Pre_finite_inputs Cert.Pre_finite_inputs.Gen
open Idealize.ShloMosaic Idealize.ShloMosaic.ValueIdx

/-- The rank-zero shape has one index. -/
instance : Subsingleton S_.Idx := ⟨fun a b => funext fun d => d.elim0⟩

/-- A word that is at least 0 and below 128 as a signed integer is below 128 as an unsigned one. -/
theorem toNat_lt_of_signed (w : BitVec 32) (h0 : IntOp.cmpi .sge w 0#32 = 1#1) (h1 : IntOp.cmpi .slt w 128#32 = 1#1) :
    w.toNat < 128 := by
  rw [IntOp.cmpi_sge] at h0
  rw [IntOp.cmpi_slt] at h1
  have hz : (0#32 : BitVec 32).toInt = 0 := by decide
  have hc : (128#32 : BitVec 32).toInt = 128 := by decide
  rw [hz] at h0
  rw [hc] at h1
  have h32 := w.isLt
  unfold BitVec.toInt at h0 h1
  split at h1 <;> omega

variable {F : FTy → Type} [FloatOps F]

/-- Under the precondition every pointer word is below 128 (unsigned). -/
theorem pointer_lt (x0 x1 : FVec F S16x128 .f32) (x2 : FVec F S16x128x128 .f32) (x3 : IVec S16x128x128 32) (x4 : IVec S16x128 32)
    (x5 : FVec F S16 .f32) (x6 : FVec F S1x128 .f32) (x7 : FVec F S128 .f32) (x8 : FVec F S1x128 .f32) (x9 : FVec F S128 .f32)
    (x10 : FVec F S1x128 .f32) (x11 : FVec F S128 .f32) (x12 : FVec F S1x128 .f32) (x13 : FVec F S128 .f32)
    (x14 : FVec F S128x128 .f32) (x15 : FVec F S128 .f32) (x16 : FVec F S1x128 .f32) (x17 : FVec F S128 .f32)
    (h : fn (F := F) x0 x1 x2 x3 x4 x5 x6 x7 x8 x9 x10 x11 x12 x13 x14 x15 x16 x17 = fun _ => 1#1)
    (b : Fin 16) (n : Fin 128) : (x4 (ix2 b n)).toNat < 128 := by
  have e := congrFun h ix0
  unfold fn fn_part1 fn_part2 fn_part3 fn_part4 fn_part5 at e
  dsimp only at e
  have e2 : Host.reduce IntOp.andi
      (andi (cmpi .sge x4 (broadcastInDim S16x128 ![] bcast_S_S16x128 (constantI S_ 32 0#32)))
        (cmpi .slt x4 (broadcastInDim S16x128 ![] bcast_S_S16x128 (constantI S_ 32 128#32))))
      (constantI S_ 1 1#1) reducesTo_S16x128_S_d0_1 h_S_ ix0 = 1#1 := (IntOp.andi_eq_one.mp e).2
  have e3 := Host.reduce_andi_all _ _ _ _ ix0 e2 (ix2 b n)
  obtain ⟨h0, h1⟩ := IntOp.andi_eq_one.mp e3
  exact toNat_lt_of_signed _ h0 h1

end Cert.Pre_finite_inputs.Decode

end
-- ==== Proof.RefValue.lean ====
/-
  The reference's four results, read at an index: each is the specification's function of the arguments.
-/
import proofs.«404626_j31421980738061_3_alg».proof.Proof.RefRead
import proofs.«404626_j31421980738061_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

/-! ## The gather of whole rows, read at an index

The table has two axes: axis 0 is collapsed and indexed by the start index (one component, read signed and clamped
into the table's rows), axis 1 is the offset axis, read at the result's last coordinate. -/

section Gather
variable {α : Type}

/-- The row the gather reads for result index (b, n, h): the start index at (b, n, 0), read signed and clamped. -/
theorem gather_row_axis0 (idx : IVec S16x128x1 32) (b : Fin 16) (n h : Fin 128) :
    gather_S128x128_S16x128x1_S16x128x128_2_0_n_n_0_2_1128.start (ix3 b n h) idx 0
      + gather_S128x128_S16x128x1_S16x128x128_2_0_n_n_0_2_1128.batchCoord (ix3 b n h) 0
      + gather_S128x128_S16x128x1_S16x128x128_2_0_n_n_0_2_1128.offCoord (ix3 b n h) 0
      = min (idx (ix3 b n 0)).toInt.toNat 127 := by
  rw [GatherDims.batchCoord_eq_zero _ _ _ List.not_mem_nil,
    GatherDims.offCoord_eq_zero _ _ _ (fun hm => ((GatherDims.mem_sKept _ _).mp hm).1 (List.mem_singleton.mpr rfl))]
  simp only [Nat.add_zero]
  unfold GatherDims.start
  rw [dif_pos (show (0 : Fin 2) ∈ gather_S128x128_S16x128x1_S16x128x128_2_0_n_n_0_2_1128.startIndexMap from
    List.mem_singleton.mpr rfl)]
  have hsi : gather_S128x128_S16x128x1_S16x128x128_2_0_n_n_0_2_1128.siIdx (ix3 b n h)
      ⟨List.idxOf (0 : Fin 2) gather_S128x128_S16x128x1_S16x128x128_2_0_n_n_0_2_1128.startIndexMap,
        List.idxOf_lt_length_iff.2 (List.mem_singleton.mpr rfl)⟩ = ix3 b n 0 := by
    funext c; refine Fin.ext ?_
    match c with
    | ⟨0, _⟩ => rfl
    | ⟨1, _⟩ => rfl
    | ⟨2, _⟩ => rfl
  rw [hsi]
  rfl

/-- The column the gather reads for result index (b, n, h): the last coordinate. -/
theorem gather_row_axis1 (idx : IVec S16x128x1 32) (b : Fin 16) (n h : Fin 128) :
    gather_S128x128_S16x128x1_S16x128x128_2_0_n_n_0_2_1128.start (ix3 b n h) idx 1
      + gather_S128x128_S16x128x1_S16x128x128_2_0_n_n_0_2_1128.batchCoord (ix3 b n h) 1
      + gather_S128x128_S16x128x1_S16x128x128_2_0_n_n_0_2_1128.offCoord (ix3 b n h) 1
      = h.val := by
  rw [GatherDims.batchCoord_eq_zero _ _ _ List.not_mem_nil]
  unfold GatherDims.start
  rw [dif_neg (show ¬ (1 : Fin 2) ∈ gather_S128x128_S16x128x1_S16x128x128_2_0_n_n_0_2_1128.startIndexMap by decide)]
  simp only [Nat.add_zero, Nat.zero_add]
  unfold GatherDims.offCoord
  rw [dif_pos (show (1 : Fin 2) ∈ gather_S128x128_S16x128x1_S16x128x128_2_0_n_n_0_2_1128.sKept by decide)]
  rfl

/-- THE GATHER READ AT (b, n, h): the table at row r and column h, where r is what the start index (b, n, 0) names,
    read signed and clamped into the 128 rows. -/
theorem gather_row_apply (x : S128x128.Idx → α) (idx : IVec S16x128x1 32) (b : Fin 16) (n h : Fin 128) (r : Fin 128)
    (hr : min (idx (ix3 b n 0)).toInt.toNat 127 = r.val) :
    Host.gather gather_S128x128_S16x128x1_S16x128x128_2_0_n_n_0_2_1128 x idx (ix3 b n h) = x (ix2 r h) := by
  unfold Host.gather
  congr 1
  funext a
  refine Fin.ext ?_
  match a with
  | ⟨0, _⟩ => exact (gather_row_axis0 idx b n h).trans hr
  | ⟨1, _⟩ => exact gather_row_axis1 idx b n h

end Gather

/-! ## The node features -/

/-- The word of a row number below 128, read signed, is the number. -/
theorem word_toInt (r : Nat) (hr : r < 128) : (BitVec.ofNat 32 r).toInt = (r : Int) := by
  rw [BitVec.toInt_eq_toNat_cond]
  simp only [BitVec.toNat_ofNat]
  rw [Nat.mod_eq_of_lt (by omega : r < 2 ^ 32), if_pos (by omega)]

/-- The word of a row number below 128 is not negative. -/
theorem word_not_neg (r : Nat) (hr : r < 128) : IntOp.cmpi .slt (BitVec.ofNat 32 r) 0#32 = 0#1 := by
  show BitVec.ofBool ((BitVec.ofNat 32 r).slt 0#32) = 0#1
  have h : (BitVec.ofNat 32 r).slt 0#32 = false := by
    simp only [BitVec.slt, word_toInt r hr, BitVec.toInt_zero, decide_eq_false_iff_not]
    omega
  rw [h]; rfl

/-- The start index the reference hands the gather at (b, n, 0): a pointer word that is the word of a row number
    below 128 is not negative, so the wrap of negative indices leaves it as it is. -/
theorem pointer_at (x4 : (⟨S16x128, .i32⟩ : BufTy).Contents (Elt Ideal)) (row : Fin 16 → Fin 128 → Fin 128)
    (hrow : ∀ (b : Fin 16) (n : Fin 128), (x4 : S16x128.Idx → BitVec 32) (ix2 b n) = BitVec.ofNat 32 (row b n).val)
    (b : Fin 16) (n : Fin 128) :
    val_main_v25 (F := Ideal) x4 (ix3 b n (0 : Fin 1)) = BitVec.ofNat 32 (row b n).val := by
  rw [val_main_v25_apply, val_main_v24_apply, val_main_v21_apply, val_main_v20_apply, val_main_c_apply]
  have e : idx_main_v25 (ix3 b n (0 : Fin 1)) = ix2 b n := by
    funext a; match a with | ⟨0, _⟩ => rfl | ⟨1, _⟩ => rfl
  rw [e, hrow, word_not_neg _ (row b n).isLt, select_zero]

/-- The gathered table row at (b, n, h): row `row b n` of the table, column h. -/
theorem gathered_at (x4 : (⟨S16x128, .i32⟩ : BufTy).Contents (Elt Ideal)) (x14 : (⟨S128x128, .f32⟩ : BufTy).Contents (Elt Ideal))
    (row : Fin 16 → Fin 128 → Fin 128)
    (hrow : ∀ (b : Fin 16) (n : Fin 128), (x4 : S16x128.Idx → BitVec 32) (ix2 b n) = BitVec.ofNat 32 (row b n).val)
    (b : Fin 16) (n h : Fin 128) :
    val_main_v26 (F := Ideal) x4 x14 (ix3 b n h) = x14 (ix2 (row b n) h) := by
  unfold val_main_v26
  refine gather_row_apply x14 (val_main_v25 (F := Ideal) x4) b n h (row b n) ?_
  have hr := (row b n).isLt
  rw [pointer_at x4 row hrow b n, word_toInt _ hr, Int.toNat_natCast]
  omega

/-- The node features: with every pointer word the word of its row number, the gather reads that row. -/
theorem ref_node (x0 x1 : (⟨S16x128, .f32⟩ : BufTy).Contents (Elt Ideal)) (x4 : (⟨S16x128, .i32⟩ : BufTy).Contents (Elt Ideal))
    (x6 : (⟨S1x128, .f32⟩ : BufTy).Contents (Elt Ideal)) (x7 : (⟨S128, .f32⟩ : BufTy).Contents (Elt Ideal))
    (x8 : (⟨S1x128, .f32⟩ : BufTy).Contents (Elt Ideal)) (x9 : (⟨S128, .f32⟩ : BufTy).Contents (Elt Ideal))
    (x14 : (⟨S128x128, .f32⟩ : BufTy).Contents (Elt Ideal)) (x15 : (⟨S128, .f32⟩ : BufTy).Contents (Elt Ideal))
    (row : Fin 16 → Fin 128 → Fin 128)
    (hrow : ∀ (b : Fin 16) (n : Fin 128), (x4 : S16x128.Idx → BitVec 32) (ix2 b n) = BitVec.ofNat 32 (row b n).val) :
    val_main_v30 (F := Ideal) x0 x1 x4 x6 x7 x8 x9 x14 x15 = Spec.nodeG x0 x1 row x6 x7 x8 x9 x14 x15 := by
  funext i
  obtain ⟨b, n, h, rfl⟩ : ∃ (b : Fin 16) (n h : Fin 128), i = ix3 b n h := ⟨i 0, i 1, i 2, eq_ix3 i⟩
  rw [Spec.nodeG_ix3]
  rw [val_main_v30_apply, val_main_v27_apply, val_main_v19_apply, val_main_v16_apply, val_main_v9_apply, val_main_v6_apply,
    val_main_v4_apply, val_main_v1_apply, val_main_v5_apply, val_main_v3_apply, val_main_v2_apply, val_main_v8_apply,
    val_main_v7_apply, val_main_v15_apply, val_main_v13_apply, val_main_v10_apply, val_main_v14_apply, val_main_v12_apply,
    val_main_v11_apply, val_main_v18_apply, val_main_v17_apply, val_main_v29_apply, val_main_v28_apply,
    gathered_at x4 x14 row hrow b n h]
  have e0 : idx_main_v1 (idx_main_v4 (ix3 b n h)) = ix2 b n := by
    funext a; match a with | ⟨0, _⟩ => rfl | ⟨1, _⟩ => rfl
  have e6 : idx_main_v2 (idx_main_v3 (idx_main_v5 (ix3 b n h))) = ix2 0 h := by
    funext a; match a with
    | ⟨0, _⟩ => rfl
    | ⟨1, _⟩ => exact Fin.ext (Nat.mod_eq_of_lt h.isLt)
  have e7 : idx_main_v7 (idx_main_v8 (ix3 b n h)) = ix1 h := by
    funext a; match a with | ⟨0, _⟩ => rfl
  have e1 : idx_main_v10 (idx_main_v13 (ix3 b n h)) = ix2 b n := by
    funext a; match a with | ⟨0, _⟩ => rfl | ⟨1, _⟩ => rfl
  have e8 : idx_main_v11 (idx_main_v12 (idx_main_v14 (ix3 b n h))) = ix2 0 h := by
    funext a; match a with
    | ⟨0, _⟩ => rfl
    | ⟨1, _⟩ => exact Fin.ext (Nat.mod_eq_of_lt h.isLt)
  have e9 : idx_main_v17 (idx_main_v18 (ix3 b n h)) = ix1 h := by
    funext a; match a with | ⟨0, _⟩ => rfl
  have e15 : idx_main_v28 (idx_main_v29 (ix3 b n h)) = ix1 h := by
    funext a; match a with | ⟨0, _⟩ => rfl
  rw [e0, e6, e7, e1, e8, e9, e15]
  rfl

/-! ## The edge features: the reference adds the second bias last, the specification inside the second summand;
    addition of extended reals is associative. -/

/-- The edge features. -/
theorem ref_edge (x2 : (⟨S16x128x128, .f32⟩ : BufTy).Contents (Elt Ideal)) (x3 : (⟨S16x128x128, .i32⟩ : BufTy).Contents (Elt Ideal))
    (x10 : (⟨S1x128, .f32⟩ : BufTy).Contents (Elt Ideal)) (x11 : (⟨S128, .f32⟩ : BufTy).Contents (Elt Ideal))
    (x12 : (⟨S1x128, .f32⟩ : BufTy).Contents (Elt Ideal)) (x13 : (⟨S128, .f32⟩ : BufTy).Contents (Elt Ideal)) :
    val_main_v49 (F := Ideal) x2 x3 x10 x11 x12 x13 = Spec.edgeG x2 x3 x10 x11 x12 x13 := by
  funext i
  obtain ⟨b, p, q, h, rfl⟩ : ∃ (b : Fin 16) (p q h : Fin 128), i = ix4 b p q h := ⟨i 0, i 1, i 2, i 3, eq_ix4 i⟩
  rw [Spec.edgeG_ix4]
  rw [val_main_v49_apply, val_main_v46_apply, val_main_v39_apply, val_main_v36_apply, val_main_v34_apply, val_main_v31_apply,
    val_main_v35_apply, val_main_v33_apply, val_main_v32_apply, val_main_v38_apply, val_main_v37_apply,
    val_main_v45_apply, val_main_v43_apply, val_main_v40_apply, val_main_v0_apply, val_main_v44_apply, val_main_v42_apply,
    val_main_v41_apply, val_main_v48_apply, val_main_v47_apply]
  have e2 : idx_main_v31 (idx_main_v34 (ix4 b p q h)) = ix3 b p q := by
    funext a; match a with | ⟨0, _⟩ => rfl | ⟨1, _⟩ => rfl | ⟨2, _⟩ => rfl
  have e10 : idx_main_v32 (idx_main_v33 (idx_main_v35 (ix4 b p q h))) = ix2 0 h := by
    funext a; match a with
    | ⟨0, _⟩ => rfl
    | ⟨1, _⟩ => exact Fin.ext (Nat.mod_eq_of_lt h.isLt)
  have e11 : idx_main_v37 (idx_main_v38 (ix4 b p q h)) = ix1 h := by
    funext a; match a with | ⟨0, _⟩ => rfl
  have e3 : idx_main_v40 (idx_main_v43 (ix4 b p q h)) = ix3 b p q := by
    funext a; match a with | ⟨0, _⟩ => rfl | ⟨1, _⟩ => rfl | ⟨2, _⟩ => rfl
  have e12 : idx_main_v41 (idx_main_v42 (idx_main_v44 (ix4 b p q h))) = ix2 0 h := by
    funext a; match a with
    | ⟨0, _⟩ => rfl
    | ⟨1, _⟩ => exact Fin.ext (Nat.mod_eq_of_lt h.isLt)
  have e13 : idx_main_v47 (idx_main_v48 (ix4 b p q h)) = ix1 h := by
    funext a; match a with | ⟨0, _⟩ => rfl
  rw [e2, e10, e11, e3, e12, e13]
  exact add_assoc _ _ _

/-! ## The graph features -/

/-- The graph features. -/
theorem ref_graph (x5 : (⟨S16, .f32⟩ : BufTy).Contents (Elt Ideal)) (x16 : (⟨S1x128, .f32⟩ : BufTy).Contents (Elt Ideal))
    (x17 : (⟨S128, .f32⟩ : BufTy).Contents (Elt Ideal)) :
    val_main_v58 (F := Ideal) x5 x16 x17 = Spec.graphG x5 x16 x17 := by
  funext i
  obtain ⟨b, h, rfl⟩ : ∃ (b : Fin 16) (h : Fin 128), i = ix2 b h := ⟨i 0, i 1, eq_ix2 i⟩
  rw [Spec.graphG_ix2]
  rw [val_main_v58_apply, val_main_v55_apply, val_main_v53_apply, val_main_v50_apply, val_main_v54_apply,
    val_main_v52_apply, val_main_v51_apply, val_main_v57_apply, val_main_v56_apply]
  have e5 : idx_main_v50 (idx_main_v53 (ix2 b h)) = ix1 b := by
    funext a; match a with | ⟨0, _⟩ => rfl
  have e16 : idx_main_v51 (idx_main_v52 (idx_main_v54 (ix2 b h))) = ix2 0 h := by
    funext a; match a with
    | ⟨0, _⟩ => rfl
    | ⟨1, _⟩ => exact Fin.ext (Nat.mod_eq_of_lt h.isLt)
  have e17 : idx_main_v56 (idx_main_v57 (ix2 b h)) = ix1 h := by
    funext a; match a with | ⟨0, _⟩ => rfl
  rw [e5, e16, e17]
  rfl

/-! ## The adjacency -/

/-- The one-hot of the pointer at (b, i, k): the indicator that node i of entry b points to node k. -/
theorem onehot_at (x4 : (⟨S16x128, .i32⟩ : BufTy).Contents (Elt Ideal)) (row : Fin 16 → Fin 128 → Fin 128)
    (hrow : ∀ (b : Fin 16) (n : Fin 128), (x4 : S16x128.Idx → BitVec 32) (ix2 b n) = BitVec.ofNat 32 (row b n).val)
    (b : Fin 16) (i k : Fin 128) :
    val_main_v66 (F := Ideal) x4 (ix3 b i k) = Spec.ind (row b i = k) := by
  rw [val_main_v66_apply, val_main_call0_v4_apply, val_main_call0_v2_apply, val_main_call0_v0_apply,
    val_main_call0_v3_apply, val_main_call0_v1_apply]
  have e : idx_main_call0_v0 (idx_main_call0_v2 (ix3 b i k)) = ix2 b i := by
    funext a; match a with | ⟨0, _⟩ => rfl | ⟨1, _⟩ => rfl
  rw [e, hrow]
  exact Spec.bitE_cmpi_eq (row b i) k

/-- The diagonal at (b, i, j): the indicator of i = j (the row number plus the zero word, against the column number). -/
theorem eye_at (b : Fin 16) (i j : Fin 128) :
    val_main_v65 (F := Ideal) (ix3 b i j) = Spec.ind (i = j) := by
  rw [val_main_v65_apply, val_main_v64_apply, val_main_v63_apply, val_main_v62_apply, val_main_v59_apply,
    val_main_v61_apply, val_main_c_1_apply, val_main_v60_apply]
  show Spec.bitE (IntOp.cmpi .eq (BitVec.ofNat 32 i.val + 0#32) (BitVec.ofNat 32 j.val)) = _
  rw [BitVec.add_zero]
  exact Spec.bitE_cmpi_eq i j

/-- The adjacency: with every pointer word the word of its row number, the one-hot rows are the indicators. -/
theorem ref_adj (x3 : (⟨S16x128x128, .i32⟩ : BufTy).Contents (Elt Ideal)) (x4 : (⟨S16x128, .i32⟩ : BufTy).Contents (Elt Ideal))
    (row : Fin 16 → Fin 128 → Fin 128)
    (hrow : ∀ (b : Fin 16) (n : Fin 128), (x4 : S16x128.Idx → BitVec 32) (ix2 b n) = BitVec.ofNat 32 (row b n).val) :
    val_main_v81 (F := Ideal) x3 x4 = Spec.adjG x3 row := by
  funext i
  obtain ⟨b, p, q, rfl⟩ : ∃ (b : Fin 16) (p q : Fin 128), i = ix3 b p q := ⟨i 0, i 1, i 2, eq_ix3 i⟩
  rw [Spec.adjG_ix3]
  rw [val_main_v81_apply, val_main_v80_apply, val_main_v78_apply, val_main_v72_apply, val_main_v71_apply,
    val_main_v70_apply, val_main_v68_apply, val_main_v67_apply, val_main_v69_apply, val_main_cst_apply,
    val_main_v77_apply, val_main_v76_apply, val_main_v74_apply, val_main_v73_apply, val_main_v75_apply,
    val_main_cst_2_apply, val_main_v79_apply, val_main_cst_3_apply]
  have et : idx_main_v67 (ix3 b p q) = ix3 b q p := by
    funext a; match a with | ⟨0, _⟩ => rfl | ⟨1, _⟩ => rfl | ⟨2, _⟩ => rfl
  have et' : idx_main_v73 (ix3 b p q) = ix3 b q p := by
    funext a; match a with | ⟨0, _⟩ => rfl | ⟨1, _⟩ => rfl | ⟨2, _⟩ => rfl
  rw [et, et', eye_at b p q, onehot_at x4 row hrow b p q, onehot_at x4 row hrow b q p]
  rfl

end Cert.ReferenceIdeal.RefValue

end
-- ==== Proof.KNode.lean ====
/-
  The node-feature array after the kernel's run: at every index the two scalar fields through their one-row
  maps, the pointed-to row of the pointer table and the three biases.
-/
import proofs.«404626_j31421980738061_3_alg».proof.Proof.Gen.KernelIdeal.Frame
import proofs.«404626_j31421980738061_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

namespace Node

/-! ## What the body stores into the node block

The body's one store into output window 15 covers the whole block; what it stores is the sum of the two scalar
fields' rows through their one-row maps, the biases and the pointer table's product, of the rows the body loads. -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- Row `i 0` of a [16, 128] array, as the body loads it: a [1, 128] block. -/
abbrev rowLoad {F : FTy → Type} {e : EltTy} (X : S16x128.Idx → Elt F e) (i : grid0.Coords) : S1x128.Idx → Elt F e :=
  View.ld X (Rect.unit (s := S16x128) (k0_off1 i) S1x128.size (k0_off1_inb i))

/-- The node block after the body at grid coordinates `i`: the one covering store's value, over the rows of the
    position, scalar and pointer arrays at entry `i 0` and the whole parameter blocks. -/
theorem node_store {F : FTy → Type} [FloatOps F] (c : Dev nD) (i : grid0.Coords) (arg1 : Memref sig .tc .vmem S16x128 .f32) (harg1 : arg1.IsWhole) (arg2 : Memref sig .tc .vmem S16x128 .f32) (harg2 : arg2.IsWhole) (arg3 : Memref sig .tc .vmem S16x128 .i32) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S1x128 .f32) (harg6 : arg6.IsWhole) (arg7 : Memref sig .tc .vmem S128 .f32) (harg7 : arg7.IsWhole) (arg8 : Memref sig .tc .vmem S1x128 .f32) (harg8 : arg8.IsWhole) (arg9 : Memref sig .tc .vmem S128 .f32) (harg9 : arg9.IsWhole) (arg10 : Memref sig .tc .vmem S1x128 .f32) (harg10 : arg10.IsWhole) (arg11 : Memref sig .tc .vmem S128 .f32) (harg11 : arg11.IsWhole) (arg12 : Memref sig .tc .vmem S1x128 .f32) (harg12 : arg12.IsWhole) (arg13 : Memref sig .tc .vmem S128 .f32) (harg13 : arg13.IsWhole) (arg14 : Memref sig .tc .vmem S128x128 .f32) (harg14 : arg14.IsWhole) (arg15 : Memref sig .tc .vmem S128 .f32) (harg15 : arg15.IsWhole) (arg16 : Memref sig .tc .vmem S1x128x128 .f32) (harg16 : arg16.IsWhole) (arg17 : Memref sig .tc .vmem S1x128x128x128 .f32) (harg17 : arg17.IsWhole) (arg18 : Memref sig .tc .vmem S1x128x128 .f32) (harg18 : arg18.IsWhole)
    (x0 : Vec F S16x128 .f32) (x1 : Vec F S16x128 .f32) (x2 : Vec F S16x128 .i32) (x3 : Vec F S1x128x128 .f32) (x4 : Vec F S1x128x128 .i32) (x5 : Vec F S1x128 .f32) (x6 : Vec F S128 .f32) (x7 : Vec F S1x128 .f32) (x8 : Vec F S128 .f32) (x9 : Vec F S1x128 .f32) (x10 : Vec F S128 .f32) (x11 : Vec F S1x128 .f32) (x12 : Vec F S128 .f32) (x13 : Vec F S128x128 .f32) (x14 : Vec F S128 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14
      = k0_pay11 (k0_pay2 (rowLoad (F := F) x1 i)) x6 (k0_pay4 x7) x8 x14 (k0_pay8 (rowLoad (F := F) x2 i) x13) (k0_pay9 x5) (k0_pay10 (rowLoad (F := F) x0 i)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14)]
  unfold kernelRun0_A
  dsimp only
  sl_unfold_run_names
  rw [View.canon_unit_zero zeros3]
  simp only [View.readAt_eq_ld, harg1.read_unread, harg2.read_unread, harg3.read_unread, harg6.read_unread, harg7.read_unread, harg8.read_unread, harg9.read_unread, harg14.read_unread, harg15.read_unread,
    View.ld_unit_zero (S := S1x128) zeros2, View.ld_unit_zero (S := S128) zeros1, View.ld_unit_zero (S := S128x128) zeros2]

/-! ## Two layout operations read at an index: a vector as a column, a column across its rows -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The stored value at an index, over the extended reals -/

/-- A loaded [1, 128] row viewed as a vector reads the row's entry. -/
theorem row_as_vector (v : Vec Ideal S1x128 .f32) (n : Fin 128) : k0_pay2 (F := Ideal) v (ix1 n) = v (ix2 (0 : Fin 1) n) := by
  unfold k0_pay2
  exact shapeCast_1a_a_apply v shapeCasts_S1x128_S128 n

/-- The same for the scalar field's one-row map. -/
theorem map_as_vector (v : Vec Ideal S1x128 .f32) (h : Fin 128) : k0_pay4 (F := Ideal) v (ix1 h) = v (ix2 (0 : Fin 1) h) := by
  unfold k0_pay4
  exact shapeCast_1a_a_apply v shapeCasts_S1x128_S128 h

/-- The position field's one-row map, flattened and restored, is itself. -/
theorem map_restored (v : Vec Ideal S1x128 .f32) : k0_pay9 (F := Ideal) v = v := by
  unfold k0_pay9
  exact shapeCast_shapeCast v shapeCasts_S1x128_S128 shapeCasts_S128_S1x128

/-- The loaded position row as a column across the hidden axis: entry `(n, h)` is the row's entry `n`. -/
theorem row_as_column (v : Vec Ideal S1x128 .f32) (n h : Fin 128) : k0_pay10 (F := Ideal) v (ix2 n h) = v (ix2 (0 : Fin 1) n) := by
  unfold k0_pay10
  refine (broadcastTo_a1_ab_apply _ broadcasts_S128x1_S128x128 n h).trans ?_
  refine (shapeCast_a_a1_apply _ shapeCasts_S128_S128x1 n (0 : Fin 1)).trans ?_
  exact shapeCast_1a_a_apply v shapeCasts_S1x128_S128 n

/-- The pointer indicator: entry `(n, k)` compares column number `k` with node `n`'s pointer word, so it is 1
    exactly when `k` is the node pointed to. -/
theorem pointer_indicator (v : Vec Ideal S1x128 .i32) (n k r : Fin 128) (hr : v (ix2 (0 : Fin 1) n) = BitVec.ofNat 32 r.val) :
    k0_pay7 (F := Ideal) v (ix2 n k) = Spec.ind (k = r) := by
  unfold k0_pay7
  refine (Spec.toInt_setWidth_bit _).trans ?_
  have e1 : iota .tc S128x128 32 [1] iota_S128x128_d1_w32 (ix2 n k) = BitVec.ofNat 32 k.val :=
    iota_single_apply .tc S128x128 32 1 iota_S128x128_d1_w32 (ix2 n k)
  have e2 : broadcastTo S128x128 (shapeCast S128x1 (shapeCast S128 v shapeCasts_S1x128_S128) shapeCasts_S128_S128x1)
      broadcasts_S128x1_S128x128 (ix2 n k) = BitVec.ofNat 32 r.val :=
    ((broadcastTo_a1_ab_apply _ broadcasts_S128x1_S128x128 n k).trans
      ((shapeCast_a_a1_apply _ shapeCasts_S128_S128x1 n (0 : Fin 1)).trans
        (shapeCast_1a_a_apply v shapeCasts_S1x128_S128 n))).trans hr
  show Spec.bitE (IntOp.cmpi .eq (iota .tc S128x128 32 [1] iota_S128x128_d1_w32 (ix2 n k))
    (broadcastTo S128x128 (shapeCast S128x1 (shapeCast S128 v shapeCasts_S1x128_S128) shapeCasts_S128_S128x1)
      broadcasts_S128x1_S128x128 (ix2 n k))) = _
  rw [e1, e2]
  exact Spec.bitE_cmpi_eq k r

/-! The matrix product's operand indices, axis by axis: the left operand is read at (result row, contraction
position), the right one at (contraction position, result column). -/

theorem lhs_row (j : S128x128.Idx) (q : dot_S128x128_S128x128_S128x128_1_0_0_1_n_n.contr.Idx) :
    (dot_S128x128_S128x128_S128x128_1_0_0_1_n_n.lhsIdx j q 0).val = (j 0).val := by
  unfold DotDims.lhsIdx
  rw [dif_neg (show ¬(0 : Fin S128x128.rank) ∈ dot_S128x128_S128x128_S128x128_1_0_0_1_n_n.lhsBatch by decide),
    dif_pos (show (0 : Fin S128x128.rank) ∈ dot_S128x128_S128x128_S128x128_1_0_0_1_n_n.lhsNonContracting by decide)]
  rfl

theorem lhs_col (j : S128x128.Idx) (q : dot_S128x128_S128x128_S128x128_1_0_0_1_n_n.contr.Idx) :
    (dot_S128x128_S128x128_S128x128_1_0_0_1_n_n.lhsIdx j q 1).val = (q ⟨0, Nat.one_pos⟩).val :=
  dot_S128x128_S128x128_S128x128_1_0_0_1_n_n.lhsIdx_val_of_single (cl := 1) rfl j q

theorem rhs_row (j : S128x128.Idx) (q : dot_S128x128_S128x128_S128x128_1_0_0_1_n_n.contr.Idx) :
    (dot_S128x128_S128x128_S128x128_1_0_0_1_n_n.rhsIdx j q 0).val = (q ⟨0, Nat.one_pos⟩).val :=
  dot_S128x128_S128x128_S128x128_1_0_0_1_n_n.rhsIdx_val_of_single (cr := 0) rfl j q

theorem rhs_col (j : S128x128.Idx) (q : dot_S128x128_S128x128_S128x128_1_0_0_1_n_n.contr.Idx) :
    (dot_S128x128_S128x128_S128x128_1_0_0_1_n_n.rhsIdx j q 1).val = (j 1).val := by
  unfold DotDims.rhsIdx
  rw [dif_neg (show ¬(1 : Fin S128x128.rank) ∈ dot_S128x128_S128x128_S128x128_1_0_0_1_n_n.rhsBatch by decide),
    dif_pos (show (1 : Fin S128x128.rank) ∈ dot_S128x128_S128x128_S128x128_1_0_0_1_n_n.rhsNonContracting by decide)]
  rfl

/-- The matrix unit's product into a zero accumulator, at `(n, h)`: the sum over the contraction position `k` of
    the left operand at `(n, k)` times the right operand at `(k, h)`. -/
theorem product_apply (lhs rhs : FVec Ideal S128x128 .bf16) (n h : Fin 128) :
    matmul dot_S128x128_S128x128_S128x128_1_0_0_1_n_n none lhs rhs (constant (F := Ideal) S128x128 .f32 0x00000000#32) (ix2 n h)
      = ∑ k : Fin 128, lhs (ix2 n k) * rhs (ix2 k h) := by
  refine (Ideal.matmul_constant_zero_apply dot_S128x128_S128x128_S128x128_1_0_0_1_n_n none lhs rhs (ix2 n h)).trans ?_
  rw [← Equiv.sum_comp (contrEquiv1 dot_S128x128_S128x128_S128x128_1_0_0_1_n_n 128 rfl rfl).symm]
  refine Finset.sum_congr rfl fun k _ => ?_
  have el : dot_S128x128_S128x128_S128x128_1_0_0_1_n_n.lhsIdx (ix2 n h) ((contrEquiv1 dot_S128x128_S128x128_S128x128_1_0_0_1_n_n 128 rfl rfl).symm k) = ix2 n k :=
    Shape.idx_ext₂ (lhs_row _ _) ((lhs_col _ _).trans (contrEquiv1_symm_val dot_S128x128_S128x128_S128x128_1_0_0_1_n_n 128 rfl rfl k))
  have er : dot_S128x128_S128x128_S128x128_1_0_0_1_n_n.rhsIdx (ix2 n h) ((contrEquiv1 dot_S128x128_S128x128_S128x128_1_0_0_1_n_n 128 rfl rfl).symm k) = ix2 k h :=
    Shape.idx_ext₂ ((rhs_row _ _).trans (contrEquiv1_symm_val dot_S128x128_S128x128_S128x128_1_0_0_1_n_n 128 rfl rfl k)) (rhs_col _ _)
  rw [el, er]

/-- The product with the pointer table, at `(n, h)`: of the sum over the table's rows only the pointed-to row's term
    is not zero, so it is the table's entry `(r, h)`. (Zero times any extended real is zero, one times it is itself:
    no finiteness is asked.) -/
theorem pointed_row (v : Vec Ideal S1x128 .i32) (W : Vec Ideal S128x128 .f32) (n h r : Fin 128)
    (hr : v (ix2 (0 : Fin 1) n) = BitVec.ofNat 32 r.val) :
    k0_pay8 (F := Ideal) v W (ix2 n h) = W (ix2 r h) := by
  unfold k0_pay8
  refine (product_apply _ _ n h).trans ?_
  rw [Finset.sum_eq_single r]
  · show k0_pay7 (F := Ideal) v (ix2 n r) * W (ix2 r h) = W (ix2 r h)
    rw [pointer_indicator v n r r hr, Spec.ind, if_pos rfl, one_mul]
  · intro k _ hk
    show k0_pay7 (F := Ideal) v (ix2 n k) * W (ix2 k h) = 0
    rw [pointer_indicator v n k r hr, Spec.ind, if_neg hk, zero_mul]
  · intro hn
    exact absurd (Finset.mem_univ r) hn

section Layout
variable {α : Type}

/-- A vector laid across the rows of a matrix reads, at `(n, h)`, its entry `h`. -/
theorem vector_across_rows (v : S128.Idx → α) (n h : Fin 128) :
    broadcastTo S128x128 (shapeCast S1x128 v shapeCasts_S128_S1x128) broadcasts_S1x128_S128x128 (ix2 n h) = v (ix1 h) :=
  (broadcastTo_1b_ab_apply _ broadcasts_S1x128_S128x128 n h).trans (shapeCast_a_1a_apply v shapeCasts_S128_S1x128 (0 : Fin 1) h)

/-- A vector laid down the columns of a matrix reads, at `(n, h)`, its entry `n`. -/
theorem vector_down_columns (v : S128.Idx → α) (n h : Fin 128) :
    broadcastTo S128x128 (shapeCast S128x1 v shapeCasts_S128_S128x1) broadcasts_S128x1_S128x128 (ix2 n h) = v (ix1 n) :=
  (broadcastTo_a1_ab_apply _ broadcasts_S128x1_S128x128 n h).trans (shapeCast_a_a1_apply v shapeCasts_S128_S128x1 n (0 : Fin 1))

end Layout

/-- The stored block at `(u, n, h)`: the kernel's own order of additions over the entries of its operands. -/
theorem stored_apply (v5 : FVec Ideal S128 .f32) (v13 : Vec Ideal S128 .f32) (v15 : FVec Ideal S128 .f32) (v16 v24 : Vec Ideal S128 .f32)
    (v33 : FVec Ideal S128x128 .f32) (v35 : FVec Ideal S1x128 .f32) (v36 : FVec Ideal S128x128 .f32) (u : Fin 1) (n h : Fin 128) :
    k0_pay11 (F := Ideal) v5 v13 v15 v16 v24 v33 v35 v36 (ix3 u n h)
      = ((((v36 (ix2 n h) * v35 (ix2 (0 : Fin 1) h) + v13 (ix1 h)) + v5 (ix1 n) * v15 (ix1 h)) + v16 (ix1 h)) + v33 (ix2 n h)) + v24 (ix1 h) := by
  unfold k0_pay11
  refine (shapeCast_ab_1ab_apply _ shapeCasts_S128x128_S1x128x128 u n h).trans ?_
  show ((((v36 (ix2 n h) * broadcastTo S128x128 v35 broadcasts_S1x128_S128x128 (ix2 n h)
      + broadcastTo S128x128 (shapeCast S1x128 v13 shapeCasts_S128_S1x128) broadcasts_S1x128_S128x128 (ix2 n h))
      + broadcastTo S128x128 (shapeCast S128x1 v5 shapeCasts_S128_S128x1) broadcasts_S128x1_S128x128 (ix2 n h)
        * broadcastTo S128x128 (shapeCast S1x128 v15 shapeCasts_S128_S1x128) broadcasts_S1x128_S128x128 (ix2 n h))
      + broadcastTo S128x128 (shapeCast S1x128 v16 shapeCasts_S128_S1x128) broadcasts_S1x128_S128x128 (ix2 n h))
      + v33 (ix2 n h))
      + broadcastTo S128x128 (shapeCast S1x128 v24 shapeCasts_S128_S1x128) broadcasts_S1x128_S128x128 (ix2 n h) = _
  rw [broadcastTo_1b_ab_apply v35 broadcasts_S1x128_S128x128 n h, vector_across_rows v13 n h, vector_down_columns v5 n h,
    vector_across_rows v15 n h, vector_across_rows v16 n h, vector_across_rows v24 n h]

/-! ## The blocks the body reads, as entries of the arrays

Every window but the node block's holds its whole array at every grid point (block index 0); the node block at
point `t` is entry `t` of the node array. A block's element sits in the array, on each axis, at the block index
times the block's size plus its coordinate inside the block. -/

/-- The printed index maps, decided once over the 16 grid points. -/
theorem index_facts : ∀ t : Fin cfg0.N,
    (grid0.coords t 0).val = t.val
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_13.index t (0 : Fin 2) = 0 ∧ win0_13.index t (1 : Fin 2) = 0
    ∧ win0_14.index t (0 : Fin 1) = 0
    ∧ win0_15.index t (0 : Fin 3) = t.val ∧ win0_15.index t (1 : Fin 3) = 0 ∧ win0_15.index t (2 : Fin 3) = 0 :=
  (by decide +kernel : ∀ t : Fin grid0.N, _)

/-- The batch entry a grid point works on. -/
abbrev entry (t : Fin cfg0.N) : Fin 16 := t.cast N_0

/-- The row the body loads at grid coordinates `i` is row `i 0` of the block. -/
theorem rowLoad_apply {F : FTy → Type} {e : EltTy} (X : S16x128.Idx → Elt F e) (i : grid0.Coords) (b : Fin 16)
    (hb : (i 0).val = b.val) (n : Fin 128) : rowLoad (F := F) X i (ix2 (0 : Fin 1) n) = X (ix2 b n) := by
  refine congrArg X (funext fun a => Fin.ext ?_)
  match a with
  | ⟨0, _⟩ =>
    show (k0_off1 i) 0 + 1 * 0 = b.val
    rw [k0_off1_eq i]
    show (i 0).val + 1 * 0 = b.val
    omega
  | ⟨1, _⟩ =>
    show (k0_off1 i) 1 + 1 * n.val = n.val
    rw [k0_off1_eq i]
    show 0 + 1 * n.val = n.val
    omega

/-- The position window's block is the position array. -/
theorem pos_block (c : Dev nD) (t : Fin cfg0.N) (b : Fin 16) (n : Fin 128) :
    (iblk m c 0 t : Vec Ideal S16x128 .f32) (ix2 b n) = (V m c main_arg0 : S16x128.Idx → EReal) (ix2 b n) := by
  obtain ⟨g0, a0_0, a0_1, a1_0, a1_1, a2_0, a2_1, a5_0, a5_1, a6_0, a7_0, a7_1, a8_0, a13_0, a13_1, a14_0, a15_0, a15_1, a15_2⟩ := index_facts t
  show V m c main_arg0 (((cfg0.win 0).blk t).view.emb (ix2 b n)) = V m c main_arg0 (ix2 b n)
  refine congrArg _ (funext fun a => Fin.ext ?_)
  match a with
  | ⟨0, _⟩ => show win0_0.index t (0 : Fin 2) * 16 + 1 * b.val = b.val; omega
  | ⟨1, _⟩ => show win0_0.index t (1 : Fin 2) * 128 + 1 * n.val = n.val; omega

/-- The scalar window's block is the scalar array. -/
theorem scalar_block (c : Dev nD) (t : Fin cfg0.N) (b : Fin 16) (n : Fin 128) :
    (iblk m c 1 t : Vec Ideal S16x128 .f32) (ix2 b n) = (V m c main_arg1 : S16x128.Idx → EReal) (ix2 b n) := by
  obtain ⟨g0, a0_0, a0_1, a1_0, a1_1, a2_0, a2_1, a5_0, a5_1, a6_0, a7_0, a7_1, a8_0, a13_0, a13_1, a14_0, a15_0, a15_1, a15_2⟩ := index_facts t
  show V m c main_arg1 (((cfg0.win 1).blk t).view.emb (ix2 b n)) = V m c main_arg1 (ix2 b n)
  refine congrArg _ (funext fun a => Fin.ext ?_)
  match a with
  | ⟨0, _⟩ => show win0_1.index t (0 : Fin 2) * 16 + 1 * b.val = b.val; omega
  | ⟨1, _⟩ => show win0_1.index t (1 : Fin 2) * 128 + 1 * n.val = n.val; omega

/-- The pointer window's block is the array of clipped pointer words. -/
theorem pointer_block (c : Dev nD) (t : Fin cfg0.N) (b : Fin 16) (n : Fin 128) :
    (iblk m c 2 t : Vec Ideal S16x128 .i32) (ix2 b n) = (V m c main_v0 : S16x128.Idx → BitVec 32) (ix2 b n) := by
  obtain ⟨g0, a0_0, a0_1, a1_0, a1_1, a2_0, a2_1, a5_0, a5_1, a6_0, a7_0, a7_1, a8_0, a13_0, a13_1, a14_0, a15_0, a15_1, a15_2⟩ := index_facts t
  show V m c main_v0 (((cfg0.win 2).blk t).view.emb (ix2 b n)) = V m c main_v0 (ix2 b n)
  refine congrArg _ (funext fun a => Fin.ext ?_)
  match a with
  | ⟨0, _⟩ => show win0_2.index t (0 : Fin 2) * 16 + 1 * b.val = b.val; omega
  | ⟨1, _⟩ => show win0_2.index t (1 : Fin 2) * 128 + 1 * n.val = n.val; omega

/-- The position map's block is the map. -/
theorem posMap_block (c : Dev nD) (t : Fin cfg0.N) (u : Fin 1) (h : Fin 128) :
    (iblk m c 5 t : Vec Ideal S1x128 .f32) (ix2 u h) = (V m c main_arg6 : S1x128.Idx → EReal) (ix2 u h) := by
  obtain ⟨g0, a0_0, a0_1, a1_0, a1_1, a2_0, a2_1, a5_0, a5_1, a6_0, a7_0, a7_1, a8_0, a13_0, a13_1, a14_0, a15_0, a15_1, a15_2⟩ := index_facts t
  show V m c main_arg6 (((cfg0.win 5).blk t).view.emb (ix2 u h)) = V m c main_arg6 (ix2 u h)
  refine congrArg _ (funext fun a => Fin.ext ?_)
  match a with
  | ⟨0, _⟩ => show win0_5.index t (0 : Fin 2) * 1 + 1 * u.val = u.val; omega
  | ⟨1, _⟩ => show win0_5.index t (1 : Fin 2) * 128 + 1 * h.val = h.val; omega

/-- The position bias's block is the bias. -/
theorem posBias_block (c : Dev nD) (t : Fin cfg0.N) (h : Fin 128) :
    (iblk m c 6 t : Vec Ideal S128 .f32) (ix1 h) = (V m c main_arg7 : S128.Idx → EReal) (ix1 h) := by
  obtain ⟨g0, a0_0, a0_1, a1_0, a1_1, a2_0, a2_1, a5_0, a5_1, a6_0, a7_0, a7_1, a8_0, a13_0, a13_1, a14_0, a15_0, a15_1, a15_2⟩ := index_facts t
  show V m c main_arg7 (((cfg0.win 6).blk t).view.emb (ix1 h)) = V m c main_arg7 (ix1 h)
  refine congrArg _ (funext fun a => Fin.ext ?_)
  match a with
  | ⟨0, _⟩ => show win0_6.index t (0 : Fin 1) * 128 + 1 * h.val = h.val; omega

/-- The scalar map's block is the map. -/
theorem scalarMap_block (c : Dev nD) (t : Fin cfg0.N) (u : Fin 1) (h : Fin 128) :
    (iblk m c 7 t : Vec Ideal S1x128 .f32) (ix2 u h) = (V m c main_arg8 : S1x128.Idx → EReal) (ix2 u h) := by
  obtain ⟨g0, a0_0, a0_1, a1_0, a1_1, a2_0, a2_1, a5_0, a5_1, a6_0, a7_0, a7_1, a8_0, a13_0, a13_1, a14_0, a15_0, a15_1, a15_2⟩ := index_facts t
  show V m c main_arg8 (((cfg0.win 7).blk t).view.emb (ix2 u h)) = V m c main_arg8 (ix2 u h)
  refine congrArg _ (funext fun a => Fin.ext ?_)
  match a with
  | ⟨0, _⟩ => show win0_7.index t (0 : Fin 2) * 1 + 1 * u.val = u.val; omega
  | ⟨1, _⟩ => show win0_7.index t (1 : Fin 2) * 128 + 1 * h.val = h.val; omega

/-- The scalar bias's block is the bias. -/
theorem scalarBias_block (c : Dev nD) (t : Fin cfg0.N) (h : Fin 128) :
    (iblk m c 8 t : Vec Ideal S128 .f32) (ix1 h) = (V m c main_arg9 : S128.Idx → EReal) (ix1 h) := by
  obtain ⟨g0, a0_0, a0_1, a1_0, a1_1, a2_0, a2_1, a5_0, a5_1, a6_0, a7_0, a7_1, a8_0, a13_0, a13_1, a14_0, a15_0, a15_1, a15_2⟩ := index_facts t
  show V m c main_arg9 (((cfg0.win 8).blk t).view.emb (ix1 h)) = V m c main_arg9 (ix1 h)
  refine congrArg _ (funext fun a => Fin.ext ?_)
  match a with
  | ⟨0, _⟩ => show win0_8.index t (0 : Fin 1) * 128 + 1 * h.val = h.val; omega

/-- The pointer table's block is the table. -/
theorem table_block (c : Dev nD) (t : Fin cfg0.N) (r : Fin 128) (h : Fin 128) :
    (iblk m c 13 t : Vec Ideal S128x128 .f32) (ix2 r h) = (V m c main_arg14 : S128x128.Idx → EReal) (ix2 r h) := by
  obtain ⟨g0, a0_0, a0_1, a1_0, a1_1, a2_0, a2_1, a5_0, a5_1, a6_0, a7_0, a7_1, a8_0, a13_0, a13_1, a14_0, a15_0, a15_1, a15_2⟩ := index_facts t
  show V m c main_arg14 (((cfg0.win 13).blk t).view.emb (ix2 r h)) = V m c main_arg14 (ix2 r h)
  refine congrArg _ (funext fun a => Fin.ext ?_)
  match a with
  | ⟨0, _⟩ => show win0_13.index t (0 : Fin 2) * 128 + 1 * r.val = r.val; omega
  | ⟨1, _⟩ => show win0_13.index t (1 : Fin 2) * 128 + 1 * h.val = h.val; omega

/-- The pointer table's bias block is the bias. -/
theorem tableBias_block (c : Dev nD) (t : Fin cfg0.N) (h : Fin 128) :
    (iblk m c 14 t : Vec Ideal S128 .f32) (ix1 h) = (V m c main_arg15 : S128.Idx → EReal) (ix1 h) := by
  obtain ⟨g0, a0_0, a0_1, a1_0, a1_1, a2_0, a2_1, a5_0, a5_1, a6_0, a7_0, a7_1, a8_0, a13_0, a13_1, a14_0, a15_0, a15_1, a15_2⟩ := index_facts t
  show V m c main_arg15 (((cfg0.win 14).blk t).view.emb (ix1 h)) = V m c main_arg15 (ix1 h)
  refine congrArg _ (funext fun a => Fin.ext ?_)
  match a with
  | ⟨0, _⟩ => show win0_14.index t (0 : Fin 1) * 128 + 1 * h.val = h.val; omega

/-- The position window's block at point `t`. -/
abbrev posBlk (c : Dev nD) (t : Fin cfg0.N) : Vec Ideal S16x128 .f32 := iblk m c 0 t
/-- The scalar window's block. -/
abbrev scalarBlk (c : Dev nD) (t : Fin cfg0.N) : Vec Ideal S16x128 .f32 := iblk m c 1 t
/-- The pointer window's block. -/
abbrev pointerBlk (c : Dev nD) (t : Fin cfg0.N) : Vec Ideal S16x128 .i32 := iblk m c 2 t
/-- The position map's block. -/
abbrev posMapBlk (c : Dev nD) (t : Fin cfg0.N) : Vec Ideal S1x128 .f32 := iblk m c 5 t
/-- The position bias's block. -/
abbrev posBiasBlk (c : Dev nD) (t : Fin cfg0.N) : Vec Ideal S128 .f32 := iblk m c 6 t
/-- The scalar map's block. -/
abbrev scalarMapBlk (c : Dev nD) (t : Fin cfg0.N) : Vec Ideal S1x128 .f32 := iblk m c 7 t
/-- The scalar bias's block. -/
abbrev scalarBiasBlk (c : Dev nD) (t : Fin cfg0.N) : Vec Ideal S128 .f32 := iblk m c 8 t
/-- The pointer table's block. -/
abbrev tableBlk (c : Dev nD) (t : Fin cfg0.N) : Vec Ideal S128x128 .f32 := iblk m c 13 t
/-- The pointer table's bias block. -/
abbrev tableBiasBlk (c : Dev nD) (t : Fin cfg0.N) : Vec Ideal S128 .f32 := iblk m c 14 t

/-! ## The node block at a point, entry by entry

At point `t` (batch entry `t`) the stored block's entry `(u, n, h)` is the node feature of entry `t`, node `n`,
hidden unit `h`: the loaded rows are row `t` of the position, scalar and pointer arrays, the pointer word of node
`n` names row `row t n` of the table, and the sum is taken in the specification's order. -/

theorem node_at (c : Dev nD) (row : Fin 16 → Fin 128 → Fin 128)
    (hrow : ∀ (b : Fin 16) (n : Fin 128), (V m c main_v0 : S16x128.Idx → BitVec 32) (ix2 b n) = BitVec.ofNat 32 (row b n).val)
    (t : Fin cfg0.N) (u : Fin 1) (n h : Fin 128) :
    k0_pay11 (F := Ideal) (k0_pay2 (F := Ideal) (rowLoad (F := Ideal) (scalarBlk m c t) (grid0.coords t))) (posBiasBlk m c t) (k0_pay4 (F := Ideal) (scalarMapBlk m c t)) (scalarBiasBlk m c t) (tableBiasBlk m c t) (k0_pay8 (F := Ideal) (rowLoad (F := Ideal) (pointerBlk m c t) (grid0.coords t)) (tableBlk m c t)) (k0_pay9 (F := Ideal) (posMapBlk m c t)) (k0_pay10 (F := Ideal) (rowLoad (F := Ideal) (posBlk m c t) (grid0.coords t))) (ix3 u n h)
      = (Spec.nodeG (V m c main_arg0) (V m c main_arg1) row (V m c main_arg6) (V m c main_arg7) (V m c main_arg8)
          (V m c main_arg9) (V m c main_arg14) (V m c main_arg15)) (ix3 (entry t) n h) := by
  obtain ⟨g0, -⟩ := index_facts t
  have hg : (grid0.coords t 0).val = (entry t).val := g0
  have e36 : k0_pay10 (F := Ideal) (rowLoad (F := Ideal) (posBlk m c t) (grid0.coords t)) (ix2 n h) = (V m c main_arg0 : S16x128.Idx → EReal) (ix2 (entry t) n) :=
    (row_as_column (rowLoad (F := Ideal) (posBlk m c t) (grid0.coords t)) n h).trans
      ((rowLoad_apply (F := Ideal) (posBlk m c t) (grid0.coords t) (entry t) hg n).trans (pos_block m c t (entry t) n))
  have e35 : k0_pay9 (F := Ideal) (posMapBlk m c t) (ix2 (0 : Fin 1) h) = (V m c main_arg6 : S1x128.Idx → EReal) (ix2 (0 : Fin 1) h) :=
    (congrFun (map_restored (posMapBlk m c t)) (ix2 (0 : Fin 1) h)).trans (posMap_block m c t (0 : Fin 1) h)
  have e13 : (posBiasBlk m c t) (ix1 h) = (V m c main_arg7 : S128.Idx → EReal) (ix1 h) := posBias_block m c t h
  have e5 : k0_pay2 (F := Ideal) (rowLoad (F := Ideal) (scalarBlk m c t) (grid0.coords t)) (ix1 n) = (V m c main_arg1 : S16x128.Idx → EReal) (ix2 (entry t) n) :=
    (row_as_vector (rowLoad (F := Ideal) (scalarBlk m c t) (grid0.coords t)) n).trans
      ((rowLoad_apply (F := Ideal) (scalarBlk m c t) (grid0.coords t) (entry t) hg n).trans (scalar_block m c t (entry t) n))
  have e15 : k0_pay4 (F := Ideal) (scalarMapBlk m c t) (ix1 h) = (V m c main_arg8 : S1x128.Idx → EReal) (ix2 (0 : Fin 1) h) :=
    (map_as_vector (scalarMapBlk m c t) h).trans (scalarMap_block m c t (0 : Fin 1) h)
  have e16 : (scalarBiasBlk m c t) (ix1 h) = (V m c main_arg9 : S128.Idx → EReal) (ix1 h) := scalarBias_block m c t h
  have hp : (rowLoad (F := Ideal) (pointerBlk m c t) (grid0.coords t)) (ix2 (0 : Fin 1) n) = BitVec.ofNat 32 (row (entry t) n).val :=
    ((rowLoad_apply (F := Ideal) (pointerBlk m c t) (grid0.coords t) (entry t) hg n).trans (pointer_block m c t (entry t) n)).trans (hrow (entry t) n)
  have e33 : k0_pay8 (F := Ideal) (rowLoad (F := Ideal) (pointerBlk m c t) (grid0.coords t)) (tableBlk m c t) (ix2 n h)
      = (V m c main_arg14 : S128x128.Idx → EReal) (ix2 (row (entry t) n) h) :=
    (pointed_row (rowLoad (F := Ideal) (pointerBlk m c t) (grid0.coords t)) (tableBlk m c t) n h (row (entry t) n) hp).trans (table_block m c t (row (entry t) n) h)
  have e24 : (tableBiasBlk m c t) (ix1 h) = (V m c main_arg15 : S128.Idx → EReal) (ix1 h) := tableBias_block m c t h
  rw [Spec.nodeG_ix3]
  refine (stored_apply (k0_pay2 (F := Ideal) (rowLoad (F := Ideal) (scalarBlk m c t) (grid0.coords t))) (posBiasBlk m c t) (k0_pay4 (F := Ideal) (scalarMapBlk m c t)) (scalarBiasBlk m c t) (tableBiasBlk m c t) (k0_pay8 (F := Ideal) (rowLoad (F := Ideal) (pointerBlk m c t) (grid0.coords t)) (tableBlk m c t)) (k0_pay9 (F := Ideal) (posMapBlk m c t)) (k0_pay10 (F := Ideal) (rowLoad (F := Ideal) (posBlk m c t) (grid0.coords t))) u n h).trans ?_
  rw [e36, e35, e13, e5, e15, e16, e33, e24]

/-! ## From the blocks to the array -/

/-- What point `t` writes back is block `t` of the node features. -/
theorem flushed_node (c : Dev nD) (row : Fin 16 → Fin 128 → Fin 128)
    (hrow : ∀ (b : Fin 16) (n : Fin 128), (V m c main_v0 : S16x128.Idx → BitVec 32) (ix2 b n) = BitVec.ofNat 32 (row b n).val)
    (t : Fin cfg0.N) :
    (dats m 0 c).flushed 15 t = ((cfg0.win 15).blk t).view.read (Elt Ideal) (Spec.nodeG (V m c main_arg0) (V m c main_arg1) row (V m c main_arg6) (V m c main_arg7) (V m c main_arg8)
          (V m c main_arg9) (V m c main_arg14) (V m c main_arg15)) := by
  show (cfg0.win 15).cut (grid0.coords t) ((dats m 0 c).after 15 t) = _
  rw [after0_15]
  unfold outsAt0
  dsimp only
  rw [node_store (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)]
  funext j
  obtain ⟨g0, a0_0, a0_1, a1_0, a1_1, a2_0, a2_1, a5_0, a5_1, a6_0, a7_0, a7_1, a8_0, a13_0, a13_1, a14_0, a15_0, a15_1, a15_2⟩ := index_facts t
  have h0 : (j 0).val < 1 := (j 0).isLt
  have h1 : (j 1).val < 128 := (j 1).isLt
  have h2 : (j 2).val < 128 := (j 2).isLt
  have ex : (cfg0.win 15).xinj (grid0.coords t) j = ix3 (⟨(j 0).val, h0⟩ : Fin 1) (⟨(j 1).val, h1⟩ : Fin 128) (⟨(j 2).val, h2⟩ : Fin 128) :=
    funext fun a => match a with | ⟨0, _⟩ => rfl | ⟨1, _⟩ => rfl | ⟨2, _⟩ => rfl
  have ee : ((cfg0.win 15).blk t).view.emb j = ix3 (entry t) (⟨(j 1).val, h1⟩ : Fin 128) (⟨(j 2).val, h2⟩ : Fin 128) := by
    funext a
    apply Fin.ext
    match a with
    | ⟨0, _⟩ => show win0_15.index t (0 : Fin 3) * 1 + 1 * (j 0).val = t.val; omega
    | ⟨1, _⟩ => show win0_15.index t (1 : Fin 3) * 128 + 1 * (j 1).val = (j 1).val; omega
    | ⟨2, _⟩ => show win0_15.index t (2 : Fin 3) * 128 + 1 * (j 2).val = (j 2).val; omega
  show k0_pay11 (F := Ideal) (k0_pay2 (F := Ideal) (rowLoad (F := Ideal) (scalarBlk m c t) (grid0.coords t))) (posBiasBlk m c t) (k0_pay4 (F := Ideal) (scalarMapBlk m c t)) (scalarBiasBlk m c t) (tableBiasBlk m c t) (k0_pay8 (F := Ideal) (rowLoad (F := Ideal) (pointerBlk m c t) (grid0.coords t)) (tableBlk m c t)) (k0_pay9 (F := Ideal) (posMapBlk m c t)) (k0_pay10 (F := Ideal) (rowLoad (F := Ideal) (posBlk m c t) (grid0.coords t))) ((cfg0.win 15).xinj (grid0.coords t) j)
    = (Spec.nodeG (V m c main_arg0) (V m c main_arg1) row (V m c main_arg6) (V m c main_arg7) (V m c main_arg8)
          (V m c main_arg9) (V m c main_arg14) (V m c main_arg15)) (((cfg0.win 15).blk t).view.emb j)
  rw [ex, ee]
  exact node_at m c row hrow t _ _ _

/-- An index of the node array is in point `t`'s block iff each coordinate is in the block's range on its axis. -/
theorem mem_node_block (t : Fin cfg0.N) (i : S16x128x128.Idx) :
    i ∈ ((cfg0.win 15).blk t).view.set ↔ ∀ a : Fin 3, win0_15.index t a * S1x128x128.size a ≤ (i a).val ∧ (i a).val < win0_15.index t a * S1x128x128.size a + S1x128x128.size a := by
  show i ∈ ((View.whole main_v1_0).slice (win0_15.rect t)).set ↔ _
  rw [View.set_slice_whole, Rect.mem_set_unit]
  exact Iff.rfl

end Node

/-- The node features' array (output window 15) after the run, as a function of the arrays the region finds. -/
theorem final_node (c : Dev nD) (row : Fin 16 → Fin 128 → Fin 128)
    (hrow : ∀ (b : Fin 16) (n : Fin 128), (V m c main_v0 : S16x128.Idx → BitVec 32) (ix2 b n) = BitVec.ofNat 32 (row b n).val) :
    (dats m 0 c).arrAt 15 cfg0.N
      = Spec.nodeG (V m c main_arg0) (V m c main_arg1) row (V m c main_arg6) (V m c main_arg7) (V m c main_arg8)
          (V m c main_arg9) (V m c main_arg14) (V m c main_arg15) := by
  refine (dats m 0 c).arrAt_eq_of_cover 15 _ (fun t _ => Node.flushed_node m c row hrow t) fun i => ?_
  have hi0 : (i 0).val < 16 := (i 0).isLt
  have hi1 : (i 1).val < 128 := (i 1).isLt
  have hi2 : (i 2).val < 128 := (i 2).isLt
  have hN : cfg0.N = 16 := N_0
  obtain ⟨t, ht⟩ : ∃ t : Fin cfg0.N, t.val = (i 0).val := ⟨⟨(i 0).val, by omega⟩, rfl⟩
  refine ⟨t, flush0_15 t, ?_⟩
  rw [Node.mem_node_block]
  obtain ⟨-, -, -, -, -, -, -, -, -, -, -, -, -, -, -, -, a15_0, a15_1, a15_2⟩ := Node.index_facts t
  intro a
  match a with
  | ⟨0, _⟩ =>
    show win0_15.index t (0 : Fin 3) * 1 ≤ (i 0).val ∧ (i 0).val < win0_15.index t (0 : Fin 3) * 1 + 1
    omega
  | ⟨1, _⟩ =>
    show win0_15.index t (1 : Fin 3) * 128 ≤ (i 1).val ∧ (i 1).val < win0_15.index t (1 : Fin 3) * 128 + 128
    omega
  | ⟨2, _⟩ =>
    show win0_15.index t (2 : Fin 3) * 128 ≤ (i 2).val ∧ (i 2).val < win0_15.index t (2 : Fin 3) * 128 + 128
    omega

end Cert.KernelIdeal.KV

end
-- ==== Proof.KEdge.lean ====
/-
  The edge-feature array after the kernel's run: at every index the edge scalar and the edge mask through their
  one-row maps, each with its bias.
-/
import proofs.«404626_j31421980738061_3_alg».proof.Proof.Gen.KernelIdeal.Frame
import proofs.«404626_j31421980738061_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

namespace Edge

/-! ## The two broadcasts of a chunk -/

/-- A [32,128] array given a trailing unit axis and repeated along it to [32,128,128] reads, at `(r, q, h)`, the
    operand at `(r, q)`: the new axis carries no information. -/
theorem bcast_col_apply {α : Type} (X : S32x128.Idx → α) (h1 : S32x128.ShapeCasts S32x128x1)
    (h2 : S32x128x1.Broadcasts S32x128x128) (r : Fin 32) (q h : Fin 128) :
    broadcastTo S32x128x128 (shapeCast S32x128x1 X h1) h2 (ix3 r q h) = X (ix2 r q) := by
  refine (broadcastTo_apply _ h2 (ix3 r q h) (ix3 r q (0 : Fin 1)) fun ax => ?_).trans ?_
  · match ax with
    | ⟨0, _⟩ => exact (if_neg (by decide : ¬((32 : ℕ) = 1))).symm
    | ⟨1, _⟩ => exact (if_neg (by decide : ¬((128 : ℕ) = 1))).symm
    | ⟨2, _⟩ => rfl
  · refine shapeCast_apply X h1 _ _ ?_
    rw [Shape.rowMajor_val_two, Shape.rowMajor_val_three]
    show r.val * 128 + q.val = (r.val * 128 + q.val) * 1 + 0
    omega

/-- A [128] vector viewed [1,1,128] and repeated to [32,128,128] reads, at `(r, q, h)`, the vector at `h`. -/
theorem bcast_row_apply {α : Type} (w : S128.Idx → α) (h1 : S128.ShapeCasts S1x1x128)
    (h2 : S1x1x128.Broadcasts S32x128x128) (r : Fin 32) (q h : Fin 128) :
    broadcastTo S32x128x128 (shapeCast S1x1x128 w h1) h2 (ix3 r q h) = w (ix1 h) := by
  refine (broadcastTo_apply _ h2 (ix3 r q h) (ix3 (0 : Fin 1) (0 : Fin 1) h) fun ax => ?_).trans ?_
  · match ax with
    | ⟨0, _⟩ => rfl
    | ⟨1, _⟩ => rfl
    | ⟨2, _⟩ => exact (if_neg (by decide : ¬((128 : ℕ) = 1))).symm
  · refine shapeCast_apply w h1 _ _ ?_
    rw [Shape.rowMajor_val_one, Shape.rowMajor_val_three]
    show h.val = (0 * 1 + 0) * 128 + h.val
    omega

/-! ## One 32-row chunk of the block -/

/-- The chunk's edge feature at `(r, q, h)`, from the chunk of the edge scalars, the chunk of the edge mask (read
    signed), the two weight rows and the two biases: each field through its one-row map with its bias, then summed. -/
theorem chunk_apply (wA : FVec Ideal S128 .f32) (bA : Vec Ideal S128 .f32) (wM : FVec Ideal S128 .f32)
    (bM : Vec Ideal S128 .f32) (vA : Vec Ideal S1x32x128 .f32) (vM : Vec Ideal S1x32x128 .i32)
    (u : Fin 1) (r : Fin 32) (q h : Fin 128) :
    k0_pay13 wA bA wM bM vA vM (ix4 u r q h)
      = (vA (ix3 0 r q) * wA (ix1 h) + bA (ix1 h))
        + ((((vM (ix3 0 r q)).toInt : ℝ) : EReal) * wM (ix1 h) + bM (ix1 h)) := by
  unfold k0_pay13
  refine (shapeCast_abc_1abc_apply _ shapeCasts_S32x128x128_S1x32x128x128 u r q h).trans ?_
  have eA := (bcast_col_apply (shapeCast S32x128 vA shapeCasts_S1x32x128_S32x128) shapeCasts_S32x128_S32x128x1
    broadcasts_S32x128x1_S32x128x128 r q h).trans (shapeCast_1ab_ab_apply vA shapeCasts_S1x32x128_S32x128 r q)
  have eWA := bcast_row_apply wA shapeCasts_S128_S1x1x128 broadcasts_S1x1x128_S32x128x128 r q h
  have eBA := bcast_row_apply bA shapeCasts_S128_S1x1x128 broadcasts_S1x1x128_S32x128x128 r q h
  have eM := (bcast_col_apply (sitofp .f32 (shapeCast S32x128 vM shapeCasts_S1x32x128_S32x128) : FVec Ideal S32x128 .f32)
    shapeCasts_S32x128_S32x128x1 broadcasts_S32x128x1_S32x128x128 r q h).trans
      (congrArg (fun w : BitVec 32 => (((w.toInt : ℝ) : EReal))) (shapeCast_1ab_ab_apply vM shapeCasts_S1x32x128_S32x128 r q))
  have eWM := bcast_row_apply wM shapeCasts_S128_S1x1x128 broadcasts_S1x1x128_S32x128x128 r q h
  have eBM := bcast_row_apply bM shapeCasts_S128_S1x1x128 broadcasts_S1x1x128_S32x128x128 r q h
  exact congrArg₂ (· + ·) (congrArg₂ (· + ·) (congrArg₂ (· * ·) eA eWA) eBA)
    (congrArg₂ (· + ·) (congrArg₂ (· * ·) eM eWM) eBM)

/-! ## The block as one function of the blocks the body reads -/

/-- The edge features of one batch entry's block [1,128,128,128], from the entry's blocks of the edge scalars and the
    edge mask and from the two weight rows and two biases: at `(·, p, q, h)` the scalar at `(p, q)` through its
    one-row map at `h` with its bias, plus the mask at `(p, q)` (read signed) through its own. -/
def edgeBlk (xA : Vec Ideal S1x128x128 .f32) (xM : Vec Ideal S1x128x128 .i32) (wA : Vec Ideal S1x128 .f32)
    (bA : Vec Ideal S128 .f32) (wM : Vec Ideal S1x128 .f32) (bM : Vec Ideal S128 .f32) : Vec Ideal S1x128x128x128 .f32 :=
  fun y =>
    (xA (ix3 0 ⟨(y 1).val, (y 1).isLt⟩ ⟨(y 2).val, (y 2).isLt⟩) * wA (ix2 0 ⟨(y 3).val, (y 3).isLt⟩)
        + bA (ix1 ⟨(y 3).val, (y 3).isLt⟩))
      + ((((xM (ix3 0 ⟨(y 1).val, (y 1).isLt⟩ ⟨(y 2).val, (y 2).isLt⟩)).toInt : ℝ) : EReal)
          * wM (ix2 0 ⟨(y 3).val, (y 3).isLt⟩) + bM (ix1 ⟨(y 3).val, (y 3).isLt⟩))

theorem edgeBlk_ix4 (xA : Vec Ideal S1x128x128 .f32) (xM : Vec Ideal S1x128x128 .i32) (wA : Vec Ideal S1x128 .f32)
    (bA : Vec Ideal S128 .f32) (wM : Vec Ideal S1x128 .f32) (bM : Vec Ideal S128 .f32) (u : Fin 1) (p q h : Fin 128) :
    edgeBlk xA xM wA bA wM bM (ix4 u p q h)
      = (xA (ix3 0 p q) * wA (ix2 0 h) + bA (ix1 h))
        + ((((xM (ix3 0 p q)).toInt : ℝ) : EReal) * wM (ix2 0 h) + bM (ix1 h)) := rfl

/-- The chunk that starts at row `o` is rows `o … o + 31` of the block: its payload at `(·, r, q, h)` is the block's
    function at `(·, o + r, q, h)`, the chunk of the scalars and of the mask being loaded from row `o` on. -/
theorem chunk_is_rows (o : ℕ)
    (inb3 : ∀ a, (![0, o, 0] : Fin 3 → ℕ) a + S1x32x128.size a ≤ S1x128x128.size a)
    (inb4 : ∀ a, (![0, o, 0, 0] : Fin 4 → ℕ) a + S1x32x128x128.size a ≤ S1x128x128x128.size a)
    (xA : Vec Ideal S1x128x128 .f32) (xM : Vec Ideal S1x128x128 .i32) (wA : Vec Ideal S1x128 .f32)
    (bA : Vec Ideal S128 .f32) (wM : Vec Ideal S1x128 .f32) (bM : Vec Ideal S128 .f32) (x : S1x32x128x128.Idx) :
    k0_pay13 (k0_pay5 wA) bA (k0_pay6 wM) bM (View.ld xA (Rect.unit (s := S1x128x128) ![0, o, 0] S1x32x128.size inb3))
        (View.ld xM (Rect.unit (s := S1x128x128) ![0, o, 0] S1x32x128.size inb3)) x
      = edgeBlk xA xM wA bA wM bM ((Rect.unit (s := S1x128x128x128) ![0, o, 0, 0] S1x32x128x128.size inb4).emb x) := by
  obtain ⟨u, r, q, h, rfl⟩ : ∃ (u : Fin 1) (r : Fin 32) (q h : Fin 128), x = ix4 u r q h :=
    ⟨x 0, x 1, x 2, x 3, eq_ix4 x⟩
  have ho : o + 32 ≤ 128 := inb3 1
  have hr : r.val < 32 := r.isLt
  have hrow : o + r.val < 128 := by omega
  have e4 : (Rect.unit (s := S1x128x128x128) ![0, o, 0, 0] S1x32x128x128.size inb4).emb (ix4 u r q h) = ix4 (0 : Fin 1) ⟨o + r.val, hrow⟩ q h := by
    funext a; apply Fin.ext
    match a with
    | ⟨0, _⟩ => show 0 + 1 * u.val = 0; omega
    | ⟨1, _⟩ => show o + 1 * r.val = o + r.val; omega
    | ⟨2, _⟩ => show 0 + 1 * q.val = q.val; omega
    | ⟨3, _⟩ => show 0 + 1 * h.val = h.val; omega
  have e3 : (Rect.unit (s := S1x128x128) ![0, o, 0] S1x32x128.size inb3).idx (ix3 (0 : Fin 1) r q) = ix3 (0 : Fin 1) ⟨o + r.val, hrow⟩ q := by
    funext a; apply Fin.ext
    match a with
    | ⟨0, _⟩ => show 0 + 1 * 0 = 0; omega
    | ⟨1, _⟩ => show o + 1 * r.val = o + r.val; omega
    | ⟨2, _⟩ => show 0 + 1 * q.val = q.val; omega
  rw [e4, edgeBlk_ix4]
  refine (chunk_apply _ _ _ _ _ _ u r q h).trans ?_
  have eA : View.ld xA (Rect.unit (s := S1x128x128) ![0, o, 0] S1x32x128.size inb3) (ix3 0 r q) = xA (ix3 0 ⟨o + r.val, hrow⟩ q) :=
    congrArg xA e3
  have eM : View.ld xM (Rect.unit (s := S1x128x128) ![0, o, 0] S1x32x128.size inb3) (ix3 0 r q) = xM (ix3 0 ⟨o + r.val, hrow⟩ q) :=
    congrArg xM e3
  have eWA : k0_pay5 wA (ix1 h) = wA (ix2 0 h) := shapeCast_1a_a_apply wA shapeCasts_S1x128_S128 h
  have eWM : k0_pay6 wM (ix1 h) = wM (ix2 0 h) := shapeCast_1a_a_apply wM shapeCasts_S1x128_S128 h
  rw [eA, eM, eWA, eWM]

/-! ## The four stores, read back -/

/-- The zero offsets of a whole-buffer load, at rank 1 and rank 2. -/
theorem hz1 : (![0] : Fin 1 → Nat) = fun _ => 0 := funext fun a => by fin_cases a <;> rfl
theorem hz2 : (![0, 0] : Fin 2 → Nat) = fun _ => 0 := funext fun a => by fin_cases a <;> rfl

/-- The four stores write one and the same function of their 32-row chunk. -/
theorem pay1_eq (wA : FVec Ideal S128 .f32) (bA : Vec Ideal S128 .f32) (wM : FVec Ideal S128 .f32)
    (bM : Vec Ideal S128 .f32) (vA : Vec Ideal S1x32x128 .f32) (vM : Vec Ideal S1x32x128 .i32) :
    k0_pay1 wA bA wM bM vA vM = k0_pay13 wA bA wM bM vA vM := rfl

theorem pay18_eq (wA : FVec Ideal S128 .f32) (bA : Vec Ideal S128 .f32) (wM : FVec Ideal S128 .f32)
    (bM : Vec Ideal S128 .f32) (vA : Vec Ideal S1x32x128 .f32) (vM : Vec Ideal S1x32x128 .i32) :
    k0_pay18 wA bA wM bM vA vM = k0_pay13 wA bA wM bM vA vM := rfl

theorem pay17_eq (wA : FVec Ideal S128 .f32) (bA : Vec Ideal S128 .f32) (wM : FVec Ideal S128 .f32)
    (bM : Vec Ideal S128 .f32) (vA : Vec Ideal S1x32x128 .f32) (vM : Vec Ideal S1x32x128 .i32) :
    k0_pay17 wM bM (k0_pay14 vM) (k0_pay15 wA vA) (k0_pay16 bA) = k0_pay13 wA bA wM bM vA vM := rfl

/-- What the body leaves in the edge features' staging buffer: the four 32-row stores tile the block, and each
    store's payload is the block's function on its rows, so the buffer reads back as that one function of the
    blocks the body read. -/
theorem edge_block (c : Dev nD) (i : grid0.Coords) (arg1 : Memref sig .tc .vmem S16x128 .f32) (harg1 : arg1.IsWhole) (arg2 : Memref sig .tc .vmem S16x128 .f32) (harg2 : arg2.IsWhole) (arg3 : Memref sig .tc .vmem S16x128 .i32) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S1x128 .f32) (harg6 : arg6.IsWhole) (arg7 : Memref sig .tc .vmem S128 .f32) (harg7 : arg7.IsWhole) (arg8 : Memref sig .tc .vmem S1x128 .f32) (harg8 : arg8.IsWhole) (arg9 : Memref sig .tc .vmem S128 .f32) (harg9 : arg9.IsWhole) (arg10 : Memref sig .tc .vmem S1x128 .f32) (harg10 : arg10.IsWhole) (arg11 : Memref sig .tc .vmem S128 .f32) (harg11 : arg11.IsWhole) (arg12 : Memref sig .tc .vmem S1x128 .f32) (harg12 : arg12.IsWhole) (arg13 : Memref sig .tc .vmem S128 .f32) (harg13 : arg13.IsWhole) (arg14 : Memref sig .tc .vmem S128x128 .f32) (harg14 : arg14.IsWhole) (arg15 : Memref sig .tc .vmem S128 .f32) (harg15 : arg15.IsWhole) (arg16 : Memref sig .tc .vmem S1x128x128 .f32) (harg16 : arg16.IsWhole) (arg17 : Memref sig .tc .vmem S1x128x128x128 .f32) (harg17 : arg17.IsWhole) (arg18 : Memref sig .tc .vmem S1x128x128 .f32) (harg18 : arg18.IsWhole)
    (x0 : Vec Ideal S16x128 .f32) (x1 : Vec Ideal S16x128 .f32) (x2 : Vec Ideal S16x128 .i32) (x3 : Vec Ideal S1x128x128 .f32) (x4 : Vec Ideal S1x128x128 .i32) (x5 : Vec Ideal S1x128 .f32) (x6 : Vec Ideal S128 .f32) (x7 : Vec Ideal S1x128 .f32) (x8 : Vec Ideal S128 .f32) (x9 : Vec Ideal S1x128 .f32) (x10 : Vec Ideal S128 .f32) (x11 : Vec Ideal S1x128 .f32) (x12 : Vec Ideal S128 .f32) (x13 : Vec Ideal S128x128 .f32) (x14 : Vec Ideal S128 .f32) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 = edgeBlk x3 x4 x9 x10 x11 x12 := by
  funext y
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14)]
  refine View.canon_apply_of_pieces (edgeBlk x3 x4 x9 x10 x11 x12) _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 y)
  unfold kernelRun0_A
  dsimp only
  sl_unfold_words
  simp only [View.readAt_eq_ld, harg4.read_unread, harg5.read_unread, harg10.read_unread, harg11.read_unread,
    harg12.read_unread, harg13.read_unread, View.ld_unit_zero (S := S1x128) hz2, View.ld_unit_zero (S := S128) hz1]
  refine List.forall_mem_cons.mpr ⟨fun x => ?_, List.forall_mem_cons.mpr ⟨fun x => ?_, List.forall_mem_cons.mpr
    ⟨fun x => ?_, List.forall_mem_cons.mpr ⟨fun x => ?_, fun _ h => absurd h List.not_mem_nil⟩⟩⟩⟩
  · exact (congrFun (pay1_eq _ _ _ _ _ _) x).trans (chunk_is_rows 96 (by decide) (by decide) x3 x4 x9 x10 x11 x12 x)
  · exact (congrFun (pay18_eq _ _ _ _ _ _) x).trans (chunk_is_rows 64 (by decide) (by decide) x3 x4 x9 x10 x11 x12 x)
  · exact (congrFun (pay17_eq _ _ _ _ _ _) x).trans (chunk_is_rows 32 (by decide) (by decide) x3 x4 x9 x10 x11 x12 x)
  · exact chunk_is_rows 0 (by decide) (by decide) x3 x4 x9 x10 x11 x12 x

/-! ## From the blocks to the array -/

/-- The block's function at a block index is the array's edge feature at the array index it sits at: the block of
    the scalars and of the mask are batch entry `b` of their arrays, the weight rows and biases are their arrays, and
    the array index is `(b, p, q, h)` where the block index is `(·, p, q, h)`. -/
theorem edgeBlk_at (xA : Vec Ideal S1x128x128 .f32) (xM : Vec Ideal S1x128x128 .i32) (wA : Vec Ideal S1x128 .f32)
    (bA : Vec Ideal S128 .f32) (wM : Vec Ideal S1x128 .f32) (bM : Vec Ideal S128 .f32)
    (A : Spec.Sbnn.Idx → EReal) (M : Spec.Sbnn.Idx → BitVec 32) (WA : Spec.S1h.Idx → EReal) (BA : Spec.Sh.Idx → EReal)
    (WM : Spec.S1h.Idx → EReal) (BM : Spec.Sh.Idx → EReal) (b : Fin 16)
    (hA : ∀ p q : Fin 128, xA (ix3 0 p q) = A (ix3 b p q)) (hM : ∀ p q : Fin 128, xM (ix3 0 p q) = M (ix3 b p q))
    (hWA : ∀ h : Fin 128, wA (ix2 0 h) = WA (ix2 0 h)) (hBA : ∀ h : Fin 128, bA (ix1 h) = BA (ix1 h))
    (hWM : ∀ h : Fin 128, wM (ix2 0 h) = WM (ix2 0 h)) (hBM : ∀ h : Fin 128, bM (ix1 h) = BM (ix1 h))
    (y : S1x128x128x128.Idx) (i : Spec.Sbnnh.Idx) (h0 : (i 0).val = b.val) (h1 : (i 1).val = (y 1).val)
    (h2 : (i 2).val = (y 2).val) (h3 : (i 3).val = (y 3).val) :
    edgeBlk xA xM wA bA wM bM y = Spec.edgeG A M WA BA WM BM i := by
  obtain ⟨u, p, q, h, rfl⟩ : ∃ (u : Fin 1) (p q h : Fin 128), y = ix4 u p q h := ⟨y 0, y 1, y 2, y 3, eq_ix4 y⟩
  have hi : i = ix4 b p q h := by
    funext a; apply Fin.ext
    match a with
    | ⟨0, _⟩ => exact h0
    | ⟨1, _⟩ => exact h1
    | ⟨2, _⟩ => exact h2
    | ⟨3, _⟩ => exact h3
  rw [hi, edgeBlk_ix4, Spec.edgeG_ix4, hA, hM, hWA, hBA, hWM, hBM]

/-- Where each window's block sits at grid point `t`: the block of the edge scalars, of the edge mask and of the edge
    features is batch entry `t` (block 0 along the other axes); the weight rows and the biases are read whole. -/
theorem idx_facts : ∀ t : Fin cfg0.N,
    win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_16.index t (0 : Fin 4) = t.val ∧ win0_16.index t (1 : Fin 4) = 0 ∧ win0_16.index t (2 : Fin 4) = 0
    ∧ win0_16.index t (3 : Fin 4) = 0 :=
  (by decide +kernel : ∀ t : Fin grid0.N, _)

/-- The batch entry grid point `t` works on. -/
def entry (t : Fin cfg0.N) : Fin 16 := ⟨t.val, by have h : cfg0.N = 16 := N_0; have := t.isLt; omega⟩

/-- The block of the edge scalars at point `t` is batch entry `t` of their array. -/
theorem scal_blk (c : Dev nD) (t : Fin cfg0.N) (p q : Fin 128) :
    (iblk m c 3 t : Vec Ideal S1x128x128 .f32) (ix3 0 p q)
      = (V m c main_arg2 : S16x128x128.Idx → EReal) (ix3 (entry t) p q) := by
  obtain ⟨e0, e1, e2, -⟩ := idx_facts t
  show (V m c main_arg2 : S16x128x128.Idx → EReal) (((cfg0.win 3).blk t).view.emb (ix3 0 p q)) = _
  refine congrArg _ (funext fun a => Fin.ext ?_)
  match a with
  | ⟨0, _⟩ => show win0_3.index t (0 : Fin 3) * 1 + 1 * 0 = t.val; omega
  | ⟨1, _⟩ => show win0_3.index t (1 : Fin 3) * 128 + 1 * p.val = p.val; omega
  | ⟨2, _⟩ => show win0_3.index t (2 : Fin 3) * 128 + 1 * q.val = q.val; omega

/-- The block of the edge mask at point `t` is batch entry `t` of its array. -/
theorem mask_blk (c : Dev nD) (t : Fin cfg0.N) (p q : Fin 128) :
    (iblk m c 4 t : Vec Ideal S1x128x128 .i32) (ix3 0 p q)
      = (V m c main_arg3 : S16x128x128.Idx → BitVec 32) (ix3 (entry t) p q) := by
  obtain ⟨-, -, -, e0, e1, e2, -⟩ := idx_facts t
  show (V m c main_arg3 : S16x128x128.Idx → BitVec 32) (((cfg0.win 4).blk t).view.emb (ix3 0 p q)) = _
  refine congrArg _ (funext fun a => Fin.ext ?_)
  match a with
  | ⟨0, _⟩ => show win0_4.index t (0 : Fin 3) * 1 + 1 * 0 = t.val; omega
  | ⟨1, _⟩ => show win0_4.index t (1 : Fin 3) * 128 + 1 * p.val = p.val; omega
  | ⟨2, _⟩ => show win0_4.index t (2 : Fin 3) * 128 + 1 * q.val = q.val; omega

/-- The scalars' weight row is read whole. -/
theorem wA_blk (c : Dev nD) (t : Fin cfg0.N) (h : Fin 128) :
    (iblk m c 9 t : Vec Ideal S1x128 .f32) (ix2 0 h) = (V m c main_arg10 : S1x128.Idx → EReal) (ix2 0 h) := by
  obtain ⟨-, -, -, -, -, -, e0, e1, -⟩ := idx_facts t
  show (V m c main_arg10 : S1x128.Idx → EReal) (((cfg0.win 9).blk t).view.emb (ix2 0 h)) = _
  refine congrArg _ (funext fun a => Fin.ext ?_)
  match a with
  | ⟨0, _⟩ => show win0_9.index t (0 : Fin 2) * 1 + 1 * 0 = 0; omega
  | ⟨1, _⟩ => show win0_9.index t (1 : Fin 2) * 128 + 1 * h.val = h.val; omega

/-- The scalars' bias is read whole. -/
theorem bA_blk (c : Dev nD) (t : Fin cfg0.N) (h : Fin 128) :
    (iblk m c 10 t : Vec Ideal S128 .f32) (ix1 h) = (V m c main_arg11 : S128.Idx → EReal) (ix1 h) := by
  obtain ⟨-, -, -, -, -, -, -, -, e0, -⟩ := idx_facts t
  show (V m c main_arg11 : S128.Idx → EReal) (((cfg0.win 10).blk t).view.emb (ix1 h)) = _
  refine congrArg _ (funext fun a => Fin.ext ?_)
  match a with
  | ⟨0, _⟩ => show win0_10.index t (0 : Fin 1) * 128 + 1 * h.val = h.val; omega

/-- The mask's weight row is read whole. -/
theorem wM_blk (c : Dev nD) (t : Fin cfg0.N) (h : Fin 128) :
    (iblk m c 11 t : Vec Ideal S1x128 .f32) (ix2 0 h) = (V m c main_arg12 : S1x128.Idx → EReal) (ix2 0 h) := by
  obtain ⟨-, -, -, -, -, -, -, -, -, e0, e1, -⟩ := idx_facts t
  show (V m c main_arg12 : S1x128.Idx → EReal) (((cfg0.win 11).blk t).view.emb (ix2 0 h)) = _
  refine congrArg _ (funext fun a => Fin.ext ?_)
  match a with
  | ⟨0, _⟩ => show win0_11.index t (0 : Fin 2) * 1 + 1 * 0 = 0; omega
  | ⟨1, _⟩ => show win0_11.index t (1 : Fin 2) * 128 + 1 * h.val = h.val; omega

/-- The mask's bias is read whole. -/
theorem bM_blk (c : Dev nD) (t : Fin cfg0.N) (h : Fin 128) :
    (iblk m c 12 t : Vec Ideal S128 .f32) (ix1 h) = (V m c main_arg13 : S128.Idx → EReal) (ix1 h) := by
  obtain ⟨-, -, -, -, -, -, -, -, -, -, -, e0, -⟩ := idx_facts t
  show (V m c main_arg13 : S128.Idx → EReal) (((cfg0.win 12).blk t).view.emb (ix1 h)) = _
  refine congrArg _ (funext fun a => Fin.ext ?_)
  match a with
  | ⟨0, _⟩ => show win0_12.index t (0 : Fin 1) * 128 + 1 * h.val = h.val; omega

/-- What point `t` writes back is block `t` of the edge features of the arrays as the region finds them. -/
theorem flushed_edge (c : Dev nD) (t : Fin cfg0.N) :
    (dats m 0 c).flushed 16 t
      = ((cfg0.win 16).blk t).view.read (Elt Ideal)
          (Spec.edgeG (V m c main_arg2) (V m c main_arg3) (V m c main_arg10) (V m c main_arg11) (V m c main_arg12)
            (V m c main_arg13)) := by
  show (cfg0.win 16).cut (grid0.coords t) ((dats m 0 c).after 16 t) = _
  rw [after0_16]
  unfold outsAt0
  dsimp only
  rw [edge_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)]
  obtain ⟨-, -, -, -, -, -, -, -, -, -, -, -, e0, e1, e2, e3⟩ := idx_facts t
  funext j
  refine edgeBlk_at (iblk m c 3 t) (iblk m c 4 t) (iblk m c 9 t) (iblk m c 10 t) (iblk m c 11 t) (iblk m c 12 t)
    (V m c main_arg2) (V m c main_arg3) (V m c main_arg10) (V m c main_arg11) (V m c main_arg12) (V m c main_arg13)
    (entry t) (scal_blk m c t) (mask_blk m c t) (wA_blk m c t) (bA_blk m c t) (wM_blk m c t) (bM_blk m c t) j
    (((cfg0.win 16).blk t).view.emb j) ?_ ?_ ?_ ?_
  · show win0_16.index t (0 : Fin 4) * 1 + 1 * (j 0).val = t.val
    have hj : (j 0).val < 1 := (j 0).isLt
    omega
  · show win0_16.index t (1 : Fin 4) * 128 + 1 * (j 1).val = (j 1).val
    omega
  · show win0_16.index t (2 : Fin 4) * 128 + 1 * (j 2).val = (j 2).val
    omega
  · show win0_16.index t (3 : Fin 4) * 128 + 1 * (j 3).val = (j 3).val
    omega

/-- An index of the edge features' array is in point `t`'s block iff each coordinate is in the block's range. -/
theorem mem_edge_blk (t : Fin cfg0.N) (i : S16x128x128x128.Idx) :
    i ∈ ((cfg0.win 16).blk t).view.set ↔ ∀ a : Fin 4, win0_16.index t a * S1x128x128x128.size a ≤ (i a).val
      ∧ (i a).val < win0_16.index t a * S1x128x128x128.size a + S1x128x128x128.size a := by
  show i ∈ ((View.whole main_v1_1).slice (win0_16.rect t)).set ↔ _
  rw [View.set_slice_whole, Rect.mem_set_unit]
  exact Iff.rfl

/-- Every index of the array lies in the block of the point of its batch entry. -/
theorem edge_cover (i : S16x128x128x128.Idx) :
    ∃ t : Fin cfg0.N, (cfg0.win 16).flush t = true ∧ i ∈ ((cfg0.win 16).blk t).view.set := by
  have hN : cfg0.N = 16 := N_0
  have h0 : (i 0).val < 16 := (i 0).isLt
  have h1 : (i 1).val < 128 := (i 1).isLt
  have h2 : (i 2).val < 128 := (i 2).isLt
  have h3 : (i 3).val < 128 := (i 3).isLt
  obtain ⟨t, ht⟩ : ∃ t : Fin cfg0.N, t.val = (i 0).val := ⟨⟨(i 0).val, by omega⟩, rfl⟩
  obtain ⟨-, -, -, -, -, -, -, -, -, -, -, -, e0, e1, e2, e3⟩ := idx_facts t
  refine ⟨t, flush0_16 t, ?_⟩
  rw [mem_edge_blk]
  intro a
  match a with
  | ⟨0, _⟩ =>
    show win0_16.index t (0 : Fin 4) * 1 ≤ (i 0).val ∧ (i 0).val < win0_16.index t (0 : Fin 4) * 1 + 1
    omega
  | ⟨1, _⟩ =>
    show win0_16.index t (1 : Fin 4) * 128 ≤ (i 1).val ∧ (i 1).val < win0_16.index t (1 : Fin 4) * 128 + 128
    omega
  | ⟨2, _⟩ =>
    show win0_16.index t (2 : Fin 4) * 128 ≤ (i 2).val ∧ (i 2).val < win0_16.index t (2 : Fin 4) * 128 + 128
    omega
  | ⟨3, _⟩ =>
    show win0_16.index t (3 : Fin 4) * 128 ≤ (i 3).val ∧ (i 3).val < win0_16.index t (3 : Fin 4) * 128 + 128
    omega

end Edge

/-- The edge features' array (output window 16) after the run, as a function of the arrays the region finds. -/
theorem final_edge (c : Dev nD) :
    (dats m 0 c).arrAt 16 cfg0.N
      = Spec.edgeG (V m c main_arg2) (V m c main_arg3) (V m c main_arg10) (V m c main_arg11) (V m c main_arg12)
          (V m c main_arg13) :=
  (dats m 0 c).arrAt_eq_of_cover 16 _ (fun t _ => Edge.flushed_edge m c t) Edge.edge_cover

end Cert.KernelIdeal.KV

end
-- ==== Proof.KAdj.lean ====
/-
  The adjacency array after the kernel's run: at every index the indicator that the diagonal, the symmetric
  pointer relation and the symmetric edge mask sum to something positive.
-/
import proofs.«404626_j31421980738061_3_alg».proof.Proof.Gen.KernelIdeal.Frame
import proofs.«404626_j31421980738061_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

namespace Adj

section Piece
variable {F : FTy → Type} [FloatOps F]

/-- The zero offsets of a block of rank three, however the zeros are spelt. -/
theorem hz3 : (![0, 0, 0] : Fin 3 → Nat) = fun _ => 0 := funext fun a => by fin_cases a <;> rfl

/-- WHAT A POINT LEAVES in its adjacency block: the one store covers the block, so the block holds the stored value,
    computed from the point's edge mask block, the column numbers, and the pointer relation of the row of pointer
    words the point reads (row `i 0` of the pointer array). -/
theorem out17_eq (c : Dev nD) (i : grid0.Coords) (arg1 : Memref sig .tc .vmem S16x128 .f32) (harg1 : arg1.IsWhole) (arg2 : Memref sig .tc .vmem S16x128 .f32) (harg2 : arg2.IsWhole) (arg3 : Memref sig .tc .vmem S16x128 .i32) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S1x128 .f32) (harg6 : arg6.IsWhole) (arg7 : Memref sig .tc .vmem S128 .f32) (harg7 : arg7.IsWhole) (arg8 : Memref sig .tc .vmem S1x128 .f32) (harg8 : arg8.IsWhole) (arg9 : Memref sig .tc .vmem S128 .f32) (harg9 : arg9.IsWhole) (arg10 : Memref sig .tc .vmem S1x128 .f32) (harg10 : arg10.IsWhole) (arg11 : Memref sig .tc .vmem S128 .f32) (harg11 : arg11.IsWhole) (arg12 : Memref sig .tc .vmem S1x128 .f32) (harg12 : arg12.IsWhole) (arg13 : Memref sig .tc .vmem S128 .f32) (harg13 : arg13.IsWhole) (arg14 : Memref sig .tc .vmem S128x128 .f32) (harg14 : arg14.IsWhole) (arg15 : Memref sig .tc .vmem S128 .f32) (harg15 : arg15.IsWhole) (arg16 : Memref sig .tc .vmem S1x128x128 .f32) (harg16 : arg16.IsWhole) (arg17 : Memref sig .tc .vmem S1x128x128x128 .f32) (harg17 : arg17.IsWhole) (arg18 : Memref sig .tc .vmem S1x128x128 .f32) (harg18 : arg18.IsWhole)
    (x0 : Vec F S16x128 .f32) (x1 : Vec F S16x128 .f32) (x2 : Vec F S16x128 .i32) (x3 : Vec F S1x128x128 .f32) (x4 : Vec F S1x128x128 .i32) (x5 : Vec F S1x128 .f32) (x6 : Vec F S128 .f32) (x7 : Vec F S1x128 .f32) (x8 : Vec F S128 .f32) (x9 : Vec F S1x128 .f32) (x10 : Vec F S128 .f32) (x11 : Vec F S1x128 .f32) (x12 : Vec F S128 .f32) (x13 : Vec F S128x128 .f32) (x14 : Vec F S128 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14
      = k0_pay12 (k0_pay3 x4) (iota .tc S128x128 32 [1] iota_S128x128_d1_w32)
          (k0_pay7 (View.ld x2 (Rect.unit (s := S16x128) (k0_off1 i) S1x128.size (k0_off1_inb i)))) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14)]
  unfold kernelRun0_A
  dsimp only
  sl_unfold_run_names
  rw [View.canon_unit_zero hz3]
  simp only [View.readAt_eq_ld, harg5.read_unread, harg3.read_unread, View.ld_unit_zero (S := S1x128x128) hz3]
end Piece

section AtIdeal

/-- A comparison of two vectors of words is the comparison entry by entry. -/
theorem cmpi_apply {s : Shape} {w : Nat} (p : CmpIPredicate) (x y : IVec s w) (i : s.Idx) :
    cmpi p x y i = IntOp.cmpi p (x i) (y i) := rfl

/-- The iota along the columns reads, at `(i, k)`, the word of `k`. -/
theorem colIota_apply (i k : Fin 128) :
    (iota .tc S128x128 32 [1] iota_S128x128_d1_w32 : IVec S128x128 32) (ix2 i k) = BitVec.ofNat 32 k.val :=
  iota_single_apply .tc S128x128 32 1 iota_S128x128_d1_w32 (ix2 i k)

/-- The iota along the rows reads, at `(i, k)`, the word of `i`. -/
theorem rowIota_apply (i k : Fin 128) :
    (iota .tc S128x128 32 [0] iota_S128x128_d0_w32 : IVec S128x128 32) (ix2 i k) = BitVec.ofNat 32 i.val :=
  iota_single_apply .tc S128x128 32 0 iota_S128x128_d0_w32 (ix2 i k)

/-- A word read as an extended real is its signed value. -/
theorem sitofp_word (w : BitVec 32) : FloatOps.sitofp (F := Ideal) .f32 w = ((w.toInt : ℝ) : EReal) := rfl

/-- A truth value does not see which side of an equation is written first. -/
theorem ind_comm (a b : Fin 128) : Spec.ind (a = b) = Spec.ind (b = a) := by
  unfold Spec.ind
  by_cases h : a = b
  · rw [if_pos h, if_pos h.symm]
  · rw [if_neg h, if_neg (fun e => h e.symm)]

/-- One stored entry over the three matrices it is computed from: the edge mask `A`, the column numbers `col`
    and the pointer relation `oh`. The entry is the indicator that the diagonal bit, the bit of
    `oh i j + oh j i > 1/2` and the bit of `A i j + A j i > 0` sum to something positive. -/
theorem pay12_core (A col : IVec S128x128 32) (oh : FVec Ideal S128x128 .f32) (u : Fin 1) (i j : Fin 128) :
    k0_pay12 (F := Ideal) A col oh (ix3 u i j)
      = Spec.bitE (Ideal.cmp .ogt
          ((Spec.bitE (IntOp.cmpi .eq (BitVec.ofNat 32 i.val) (col (ix2 i j)))
              + Spec.bitE (Ideal.cmp .ogt (oh (ix2 i j) + oh (ix2 j i)) (Ideal.ofBits .f32 0x3F000000#32)))
            + Spec.bitE (Ideal.cmp .ogt ((((A (ix2 i j)).toInt : ℝ) : EReal) + (((A (ix2 j i)).toInt : ℝ) : EReal))
                (Ideal.ofBits .f32 0x00000000#32)))
          (Ideal.ofBits .f32 0x00000000#32)) := by
  unfold k0_pay12
  refine (shapeCast_ab_1ab_apply _ _ u i j).trans ?_
  simp only [sitofp_apply, extui_apply, cmpf_apply, cmpi_apply, addf_apply, broadcast_apply]
  rw [rowIota_apply, transpose_ix2_apply, transpose_ix2_apply, sitofp_apply]
  simp only [sitofp_word, Spec.toInt_setWidth_bit, Ideal.cmpf_def, Ideal.ofBits_def]

/-- A vector laid as a column and repeated along the rows reads, at `(i, k)`, its entry `i`. -/
theorem colBroadcast_apply {α : Type} (v : S128.Idx → α) (i k : Fin 128) :
    broadcastTo S128x128 (shapeCast S128x1 v shapeCasts_S128_S128x1) broadcasts_S128x1_S128x128 (ix2 i k) = v (ix1 i) := by
  refine (broadcastTo_apply _ _ (ix2 i k) (ix2 i (0 : Fin 1)) fun a => ?_).trans ?_
  · match a with
    | ⟨0, _⟩ => rfl
    | ⟨1, _⟩ => rfl
  · exact shapeCast_apply v _ _ _ (by
      rw [Shape.rowMajor_val_one, Shape.rowMajor_val_two]
      show i.val = i.val * 1 + 0
      omega)

/-- The pointer relation: with row `n` of the pointer words naming node `row n`, entry `(i, k)` is the
    truth value of `row i = k`. -/
theorem onehot_apply (pi : Vec Ideal S1x128 .i32) (row : Fin 128 → Fin 128)
    (hpi : ∀ n : Fin 128, (pi : S1x128.Idx → BitVec 32) (ix2 (0 : Fin 1) n) = BitVec.ofNat 32 (row n).val) (i k : Fin 128) :
    k0_pay7 (F := Ideal) pi (ix2 i k) = Spec.ind (row i = k) := by
  unfold k0_pay7
  simp only [sitofp_apply, extui_apply, cmpi_apply]
  rw [colIota_apply, colBroadcast_apply, shapeCast_1a_a_apply, hpi]
  simp only [sitofp_word, Spec.toInt_setWidth_bit]
  rw [Spec.bitE_cmpi_eq, ind_comm]

/-- The edge mask block with its unit axis dropped. -/
theorem pay3_apply (adj : Vec Ideal S1x128x128 .i32) (i j : Fin 128) :
    k0_pay3 (F := Ideal) adj (ix2 i j) = (adj : S1x128x128.Idx → BitVec 32) (ix3 (0 : Fin 1) i j) := by
  unfold k0_pay3
  exact shapeCast_1ab_ab_apply _ _ i j

/-- ONE ENTRY of what a point stores into the adjacency block, over the point's edge mask block `adj` and its
    row `pi` of pointer words. -/
theorem pay12_apply (adj : Vec Ideal S1x128x128 .i32) (pi : Vec Ideal S1x128 .i32) (row : Fin 128 → Fin 128)
    (hpi : ∀ n : Fin 128, (pi : S1x128.Idx → BitVec 32) (ix2 (0 : Fin 1) n) = BitVec.ofNat 32 (row n).val)
    (u : Fin 1) (i j : Fin 128) :
    k0_pay12 (F := Ideal) (k0_pay3 (F := Ideal) adj) (iota .tc S128x128 32 [1] iota_S128x128_d1_w32) (k0_pay7 (F := Ideal) pi) (ix3 u i j)
      = Spec.bitE (Ideal.cmp .ogt
          ((Spec.ind (i = j)
              + Spec.bitE (Ideal.cmp .ogt (Spec.ind (row i = j) + Spec.ind (row j = i)) (Ideal.ofBits .f32 0x3F000000#32)))
            + Spec.bitE (Ideal.cmp .ogt
                (((((adj : S1x128x128.Idx → BitVec 32) (ix3 (0 : Fin 1) i j)).toInt : ℝ) : EReal)
                  + ((((adj : S1x128x128.Idx → BitVec 32) (ix3 (0 : Fin 1) j i)).toInt : ℝ) : EReal))
                (Ideal.ofBits .f32 0x00000000#32)))
          (Ideal.ofBits .f32 0x00000000#32)) := by
  rw [pay12_core, colIota_apply, Spec.bitE_cmpi_eq, onehot_apply pi row hpi, onehot_apply pi row hpi, pay3_apply, pay3_apply]

end AtIdeal

section Blocks

/-- The batch entry grid point `t` works on. -/
def entryOf (t : Fin cfg0.N) : Fin 16 := ⟨t.val, by have h := t.isLt; have hN : cfg0.N = 16 := N_0; omega⟩

/-- Its number is the point's. -/
theorem entryOf_val (t : Fin cfg0.N) : (entryOf t).val = t.val := rfl

/-- The edge mask block, the pointer words and the two arrays they are blocks of, at their literal types. -/
abbrev adjBlk (c : Dev nD) (t : Fin cfg0.N) : Vec Ideal S1x128x128 .i32 := iblk m c 4 t
abbrev ptrBlk (c : Dev nD) (t : Fin cfg0.N) : Vec Ideal S16x128 .i32 := iblk m c 2 t
abbrev adjArr (c : Dev nD) : Vec Ideal S16x128x128 .i32 := V m c main_arg3
abbrev ptrArr (c : Dev nD) : Vec Ideal S16x128 .i32 := V m c main_v0

/-- The windows' index maps at every grid point: the adjacency block and the edge mask block of point `t` are
    entry `t` of their arrays, the pointer words are resident whole, and the point's coordinate is its number. -/
theorem idx_facts : ∀ t : Fin cfg0.N,
    win0_17.index t (0 : Fin 3) = t.val ∧ win0_17.index t (1 : Fin 3) = 0 ∧ win0_17.index t (2 : Fin 3) = 0
    ∧ win0_4.index t (0 : Fin 3) = t.val ∧ win0_4.index t (1 : Fin 3) = 0 ∧ win0_4.index t (2 : Fin 3) = 0
    ∧ win0_2.index t (0 : Fin 2) = 0 ∧ win0_2.index t (1 : Fin 2) = 0
    ∧ ((grid0.coords t) 0).val = t.val :=
  (by decide +kernel : ∀ t : Fin grid0.N, _)

/-- Entry `(u, i, j)` of point `t`'s edge mask block is entry `(t, i, j)` of the edge mask array. -/
theorem adjBlk_apply (c : Dev nD) (t : Fin cfg0.N) (u : Fin 1) (i j : Fin 128) :
    adjBlk m c t (ix3 u i j) = adjArr m c (ix3 (entryOf t) i j) := by
  obtain ⟨-, -, -, e0, e1, e2, -, -, -⟩ := idx_facts t
  show V m c main_arg3 (((cfg0.win 4).blk t).view.emb (ix3 u i j)) = V m c main_arg3 (ix3 (entryOf t) i j)
  refine congrArg _ (funext fun a => Fin.ext ?_)
  have hu : u.val = 0 := by omega
  match a with
  | ⟨0, _⟩ => show win0_4.index t (0 : Fin 3) * 1 + 1 * u.val = t.val; omega
  | ⟨1, _⟩ => show win0_4.index t (1 : Fin 3) * 128 + 1 * i.val = i.val; omega
  | ⟨2, _⟩ => show win0_4.index t (2 : Fin 3) * 128 + 1 * j.val = j.val; omega

/-- The pointer words are resident whole: the block at any point is the array. -/
theorem ptrBlk_apply (c : Dev nD) (t : Fin cfg0.N) (r : Fin 16) (n : Fin 128) :
    ptrBlk m c t (ix2 r n) = ptrArr m c (ix2 r n) := by
  obtain ⟨-, -, -, -, -, -, e0, e1, -⟩ := idx_facts t
  show V m c main_v0 (((cfg0.win 2).blk t).view.emb (ix2 r n)) = V m c main_v0 (ix2 r n)
  refine congrArg _ (funext fun a => Fin.ext ?_)
  match a with
  | ⟨0, _⟩ => show win0_2.index t (0 : Fin 2) * 16 + 1 * r.val = r.val; omega
  | ⟨1, _⟩ => show win0_2.index t (1 : Fin 2) * 128 + 1 * n.val = n.val; omega

/-- The one-row rectangle at row `b` places `(0, n)` at `(b, n)`. -/
theorem rowRect_idx (off : Fin 2 → Nat) (b : Fin 16) (hoff : off = ![b.val, 0])
    (inb : ∀ a, off a + S1x128.size a ≤ S16x128.size a) (n : Fin 128) :
    (Rect.unit (s := S16x128) off S1x128.size inb).toLoadRect.idx (ix2 (0 : Fin 1) n) = ix2 b n := by
  subst hoff
  funext a; apply Fin.ext
  match a with
  | ⟨0, _⟩ => show b.val + 1 * 0 = b.val; omega
  | ⟨1, _⟩ => show 0 + 1 * n.val = n.val; omega

/-- The row of pointer words point `t` loads is row `t` of the pointer array. -/
theorem ptrRow_apply (c : Dev nD) (t : Fin cfg0.N) (n : Fin 128) :
    (View.ld (ptrBlk m c t) (Rect.unit (s := S16x128) (k0_off1 (grid0.coords t)) S1x128.size (k0_off1_inb (grid0.coords t)))
        : S1x128.Idx → BitVec 32) (ix2 (0 : Fin 1) n)
      = ptrArr m c (ix2 (entryOf t) n) := by
  obtain ⟨-, -, -, -, -, -, -, -, e⟩ := idx_facts t
  show ptrBlk m c t ((Rect.unit (s := S16x128) (k0_off1 (grid0.coords t)) S1x128.size (k0_off1_inb (grid0.coords t))).toLoadRect.idx (ix2 (0 : Fin 1) n)) = _
  rw [rowRect_idx (k0_off1 (grid0.coords t)) (entryOf t) (by rw [k0_off1_eq, e]; rfl) (k0_off1_inb (grid0.coords t)) n, ptrBlk_apply]

/-- Entry `(u, i, j)` of point `t`'s adjacency block sits at `(t, i, j)` of the adjacency array. -/
theorem outBlk_emb (t : Fin cfg0.N) (u : Fin 1) (i j : Fin 128) :
    ((cfg0.win 17).blk t).view.emb (ix3 u i j) = (ix3 (entryOf t) i j : S16x128x128.Idx) := by
  obtain ⟨e0, e1, e2, -⟩ := idx_facts t
  funext a; apply Fin.ext
  have hu : u.val = 0 := by omega
  match a with
  | ⟨0, _⟩ => show win0_17.index t (0 : Fin 3) * 1 + 1 * u.val = t.val; omega
  | ⟨1, _⟩ => show win0_17.index t (1 : Fin 3) * 128 + 1 * i.val = i.val; omega
  | ⟨2, _⟩ => show win0_17.index t (2 : Fin 3) * 128 + 1 * j.val = j.val; omega

/-- WHAT POINT `t` WRITES BACK is block `t` of the adjacency of the edge mask array and the pointer rows. -/
theorem flushed_adj (c : Dev nD) (row : Fin 16 → Fin 128 → Fin 128)
    (hrow : ∀ (b : Fin 16) (n : Fin 128), (V m c main_v0 : S16x128.Idx → BitVec 32) (ix2 b n) = BitVec.ofNat 32 (row b n).val)
    (t : Fin cfg0.N) :
    (dats m 0 c).flushed 17 t = ((cfg0.win 17).blk t).view.read (Elt Ideal) (Spec.adjG (V m c main_arg3) row) := by
  show (cfg0.win 17).cut (grid0.coords t) ((dats m 0 c).after 17 t) = _
  rw [after0_17]
  unfold outsAt0
  dsimp only
  rw [out17_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)]
  funext y
  obtain ⟨u, i, j, rfl⟩ : ∃ (u : Fin 1) (i j : Fin 128), y = (ix3 u i j : S1x128x128.Idx) := ⟨y 0, y 1, y 2, eq_ix3 y⟩
  show k0_pay12 (F := Ideal) (k0_pay3 (F := Ideal) (adjBlk m c t)) (iota .tc S128x128 32 [1] iota_S128x128_d1_w32)
      (k0_pay7 (F := Ideal) (View.ld (ptrBlk m c t) (Rect.unit (s := S16x128) (k0_off1 (grid0.coords t)) S1x128.size (k0_off1_inb (grid0.coords t)))))
      (ix3 u i j)
    = Spec.adjG (V m c main_arg3) row (((cfg0.win 17).blk t).view.emb (ix3 u i j))
  rw [outBlk_emb, Spec.adjG_ix3]
  refine (pay12_apply (adjBlk m c t)
    (View.ld (ptrBlk m c t) (Rect.unit (s := S16x128) (k0_off1 (grid0.coords t)) S1x128.size (k0_off1_inb (grid0.coords t))))
    (row (entryOf t)) (fun n => (ptrRow_apply m c t n).trans (hrow (entryOf t) n)) u i j).trans ?_
  rw [adjBlk_apply, adjBlk_apply]
  rfl

/-- An index of the adjacency array is in point `t`'s block iff each coordinate is in the block's range. -/
theorem mem_outBlk (t : Fin cfg0.N) (i : S16x128x128.Idx) :
    i ∈ ((cfg0.win 17).blk t).view.set ↔ ∀ a : Fin 3, win0_17.index t a * S1x128x128.size a ≤ (i a).val ∧ (i a).val < win0_17.index t a * S1x128x128.size a + S1x128x128.size a := by
  show i ∈ ((View.whole main_v1_2).slice (win0_17.rect t)).set ↔ _
  rw [View.set_slice_whole, Rect.mem_set_unit]
  exact Iff.rfl

/-- Every index of the adjacency array is in the block of the point numbered by its batch entry. -/
theorem cover_adj (i : S16x128x128.Idx) :
    ∃ t : Fin cfg0.N, (cfg0.win 17).flush t = true ∧ i ∈ ((cfg0.win 17).blk t).view.set := by
  have hN : cfg0.N = 16 := N_0
  have h0 : (i 0).val < 16 := (i 0).isLt
  have h1 : (i 1).val < 128 := (i 1).isLt
  have h2 : (i 2).val < 128 := (i 2).isLt
  obtain ⟨t, ht⟩ : ∃ t : Fin cfg0.N, t.val = (i 0).val := ⟨⟨(i 0).val, by omega⟩, rfl⟩
  obtain ⟨e0, e1, e2, -⟩ := idx_facts t
  refine ⟨t, flush0_17 t, ?_⟩
  rw [mem_outBlk]
  intro a
  match a with
  | ⟨0, _⟩ =>
    show win0_17.index t (0 : Fin 3) * 1 ≤ (i 0).val ∧ (i 0).val < win0_17.index t (0 : Fin 3) * 1 + 1
    omega
  | ⟨1, _⟩ =>
    show win0_17.index t (1 : Fin 3) * 128 ≤ (i 1).val ∧ (i 1).val < win0_17.index t (1 : Fin 3) * 128 + 128
    omega
  | ⟨2, _⟩ =>
    show win0_17.index t (2 : Fin 3) * 128 ≤ (i 2).val ∧ (i 2).val < win0_17.index t (2 : Fin 3) * 128 + 128
    omega

end Blocks

end Adj

/-- The adjacency array (output window 17) after the run, as a function of the arrays the region finds. -/
theorem final_adj (c : Dev nD) (row : Fin 16 → Fin 128 → Fin 128)
    (hrow : ∀ (b : Fin 16) (n : Fin 128), (V m c main_v0 : S16x128.Idx → BitVec 32) (ix2 b n) = BitVec.ofNat 32 (row b n).val) :
    (dats m 0 c).arrAt 17 cfg0.N = Spec.adjG (V m c main_arg3) row :=
  -- every point writes back its block of the adjacency, and the sixteen blocks fill the array
  (dats m 0 c).arrAt_eq_of_cover 17 (Spec.adjG (V m c main_arg3) row) (fun t _ => Adj.flushed_adj m c row hrow t) Adj.cover_adj

end Cert.KernelIdeal.KV

end
-- ==== Proof.HostGlue.lean ====
/-
  The host operations around the pallas_call, read as values.
  Before it the pointer words are clipped into [0, 127]: a word already below 128 (unsigned) is unchanged, so the
  region finds the pointer words themselves, each the word of its row number.
  After it the graph features are computed from three arguments no host operation and no window touches:
  the same chain of operations as the reference's, of the same arguments.
-/
import proofs.«404626_j31421980738061_3_alg».proof.Proof.Gen.KernelIdeal.Frame
import proofs.«404626_j31421980738061_3_alg».proof.Proof.RefRead
import proofs.«404626_j31421980738061_3_alg».proof.Proof.Spec
import Idealize.ShloMosaic.Lib.Pipeline.Value
import Idealize.ShloMosaic.Lib.ValueIdx
import Idealize.ShloMosaic.Lib.StableHlo.Run
import Idealize.ShloMosaic.Lib.StableHlo.Predicate

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- Clipping into [0, 127] (signed) leaves a word below 128 (unsigned) as it is. -/
theorem clip_word (w : BitVec 32) (hw : w.toNat < 128) : IntOp.minsi 127#32 (IntOp.maxsi 0#32 w) = w := by
  have hti : w.toInt = w.toNat := StableHlo.Predicate.toInt_eq_toNat_of_lt (by omega)
  have h0 : (0#32 : BitVec 32).toInt = 0 := by decide
  have h127 : (127#32 : BitVec 32).toInt = 127 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h127, decide_eq_true_eq]
  omega

/-- The array the region finds under window 2: the pointer words clipped. -/
theorem clipped_eq (c : Dev nD) :
    (V m c main_v0 : S16x128.Idx → BitVec 32)
      = minsi (broadcastInDim S16x128 ![] bcast_S_S16x128 (constantI S_ 32 127#32))
          (maxsi (broadcastInDim S16x128 ![] bcast_S_S16x128 (constantI S_ 32 0#32)) (m ((c : Thread nD τ).loc main_arg4))) := by
  dsimp only [Gen.V, Gen.V0]
  simp only [Gen.hostOps0, Gen.hostOps0_1, List.flatten_cons, List.flatten_nil, List.append_nil, List.cons_append, List.nil_append]
  after_results
  simp only [TRef.ofBuf, TRef.toBuf, cast_eq]
  rfl

/-- With every pointer word below 128, the region finds at each node the word of the node's row number. -/
theorem clipped_word (c : Dev nD)
    (hlt : ∀ (b : Fin 16) (n : Fin 128), ((m ((c : Thread nD τ).loc main_arg4) : S16x128.Idx → BitVec 32) (ix2 b n)).toNat < 128)
    (b : Fin 16) (n : Fin 128) :
    (V m c main_v0 : S16x128.Idx → BitVec 32) (ix2 b n)
      = BitVec.ofNat 32 (Spec.rowOf (m ((c : Thread nD τ).loc main_arg4)) b n).val := by
  rw [clipped_eq]
  show IntOp.minsi 127#32 (IntOp.maxsi 0#32 ((m ((c : Thread nD τ).loc main_arg4) : S16x128.Idx → BitVec 32) (ix2 b n))) = _
  rw [clip_word _ (hlt b n)]
  exact Spec.word_rowOf _ b n (hlt b n)

/-- The graph features after the run: the reference's own chain of host operations of the three arguments. -/
theorem tail_graph (c : Dev nD) :
    (Pipeline.afterTail₀ cfgs (dats m) 0 (V0 m) [hostOps1] c main_v10 : S16x128.Idx → EReal)
      = Cert.ReferenceIdeal.ReadP.val_main_v58 (F := Ideal) (m ((c : Thread nD τ).loc main_arg5)) (m ((c : Thread nD τ).loc main_arg16))
          (m ((c : Thread nD τ).loc main_arg17)) := by
  unfold Pipeline.afterTail₀
  show StableHlo.after hostOps1 _ (Proc.devRef .tc main_v10) = _
  after_results
  rw [Pipeline.withArrays_of_ne _ c (V0 m c) _ main_arg5 (by exact (by decide : ∀ w, Pipeline.arrRef spec0 w ≠ main_arg5)),
    Pipeline.withArrays_of_ne _ c (V0 m c) _ main_arg16 (by exact (by decide : ∀ w, Pipeline.arrRef spec0 w ≠ main_arg16)),
    Pipeline.withArrays_of_ne _ c (V0 m c) _ main_arg17 (by exact (by decide : ∀ w, Pipeline.arrRef spec0 w ≠ main_arg17))]
  rw [show V0 m c (Proc.devRef .tc main_arg5) = m ((c : Thread nD τ).loc main_arg5) from V_main_arg5 m c,
    show V0 m c (Proc.devRef .tc main_arg16) = m ((c : Thread nD τ).loc main_arg16) from V_main_arg16 m c,
    show V0 m c (Proc.devRef .tc main_arg17) = m ((c : Thread nD τ).loc main_arg17) from V_main_arg17 m c]
  rfl

end Cert.KernelIdeal.KV

end
-- ==== Proof.KRun.lean ====
/-
  The kernel's run, with its four results named: every weakly fair execution ends with the node features, the edge
  features, the graph features and the adjacency at the specification's functions of the argument arrays, and the
  arguments unchanged — given that every pointer word is below 128.
  The three arrays the pallas_call writes are read off its pipeline (each output window's array after the last
  write-back), the graph features off the host operations after it.
-/
import proofs.«404626_j31421980738061_3_alg».proof.Proof.KNode
import proofs.«404626_j31421980738061_3_alg».proof.Proof.KEdge
import proofs.«404626_j31421980738061_3_alg».proof.Proof.KAdj
import proofs.«404626_j31421980738061_3_alg».proof.Proof.HostGlue
import proofs.«404626_j31421980738061_3_alg».proof.Proof.RefValue

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The node features' array after the run, over the launch contents of the arguments. -/
theorem node_result (c : Dev nD)
    (hlt : ∀ (b : Fin 16) (n : Fin 128), ((m ((c : Thread nD τ).loc main_arg4) : S16x128.Idx → BitVec 32) (ix2 b n)).toNat < 128) :
    (dats m 0 c).arrAt 15 cfg0.N
      = Spec.nodeG (m ((c.tc : Thread nD τ).loc main_arg0)) (m ((c.tc : Thread nD τ).loc main_arg1)) (Spec.rowOf (m ((c.tc : Thread nD τ).loc main_arg4))) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) := by
  rw [final_node m c (Spec.rowOf (m ((c.tc : Thread nD τ).loc main_arg4))) (clipped_word m c hlt),
    V_main_arg0 m c, V_main_arg1 m c, V_main_arg6 m c, V_main_arg7 m c, V_main_arg8 m c, V_main_arg9 m c, V_main_arg14 m c, V_main_arg15 m c]

/-- The edge features' array after the run, over the launch contents of the arguments. -/
theorem edge_result (c : Dev nD) :
    (dats m 0 c).arrAt 16 cfg0.N
      = Spec.edgeG (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) := by
  rw [final_edge m c, V_main_arg2 m c, V_main_arg3 m c, V_main_arg10 m c, V_main_arg11 m c, V_main_arg12 m c, V_main_arg13 m c]

/-- The adjacency array after the run, over the launch contents of the arguments. -/
theorem adj_result (c : Dev nD)
    (hlt : ∀ (b : Fin 16) (n : Fin 128), ((m ((c : Thread nD τ).loc main_arg4) : S16x128.Idx → BitVec 32) (ix2 b n)).toNat < 128) :
    (dats m 0 c).arrAt 17 cfg0.N = Spec.adjG (m ((c.tc : Thread nD τ).loc main_arg3)) (Spec.rowOf (m ((c.tc : Thread nD τ).loc main_arg4))) := by
  rw [final_adj m c (Spec.rowOf (m ((c.tc : Thread nD τ).loc main_arg4))) (clipped_word m c hlt), V_main_arg3 m c]

/-- The graph features after the run, over the launch contents of the arguments. -/
theorem graph_result (c : Dev nD) :
    (Pipeline.afterTail₀ cfgs (dats m) 0 (V0 m) [hostOps1] c main_v10 : S16x128.Idx → EReal)
      = Spec.graphG (m ((c.tc : Thread nD τ).loc main_arg5)) (m ((c.tc : Thread nD τ).loc main_arg16)) (m ((c.tc : Thread nD τ).loc main_arg17)) :=
  (tail_graph m c).trans (Cert.ReferenceIdeal.RefValue.ref_graph _ _ _)

/-- After the run the node features' buffer is output window 15's array. -/
theorem post_node (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_v1_0) = (dats m 0 c).arrAt 15 cfg0.N :=
  (h c).1 15

/-- After the run the edge features' buffer is output window 16's array. -/
theorem post_edge (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_v1_1) = (dats m 0 c).arrAt 16 cfg0.N :=
  (h c).1 16

/-- After the run the adjacency's buffer is output window 17's array. -/
theorem post_adj (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_v1_2) = (dats m 0 c).arrAt 17 cfg0.N :=
  (h c).1 17

/-- After the run the graph features' buffer holds what the host operations after the region compute. -/
theorem post_graph (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_v10) = Pipeline.afterTail₀ cfgs (dats m) 0 (V0 m) [hostOps1] c main_v10 :=
  (h c).2 main_v10 (Pipeline.mem_restRefs_of main_v10 (by decide) (by decide))

/-- Argument 0 ends as launched. -/
theorem kept_arg0 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- Argument 1 ends as launched. -/
theorem kept_arg1 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))

/-- Argument 2 ends as launched. -/
theorem kept_arg2 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 3).trans (((dats m 0 c).arrAt_in 3 rfl _).trans ((A_eq m c 3).trans (V_main_arg2 m c)))

/-- Argument 3 ends as launched. -/
theorem kept_arg3 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).1 4).trans (((dats m 0 c).arrAt_in 4 rfl _).trans ((A_eq m c 4).trans (V_main_arg3 m c)))

/-- Argument 4 ends as launched. -/
theorem kept_arg4 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) :=
  ((h c).2 main_arg4 (Pipeline.mem_restRefs_of main_arg4 (by decide) (by decide))).trans (W_main_arg4 m (dats m) c)

/-- Argument 5 ends as launched. -/
theorem kept_arg5 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) :=
  ((h c).2 main_arg5 (Pipeline.mem_restRefs_of main_arg5 (by decide) (by decide))).trans (W_main_arg5 m (dats m) c)

/-- Argument 6 ends as launched. -/
theorem kept_arg6 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) :=
  ((h c).1 5).trans (((dats m 0 c).arrAt_in 5 rfl _).trans ((A_eq m c 5).trans (V_main_arg6 m c)))

/-- Argument 7 ends as launched. -/
theorem kept_arg7 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) :=
  ((h c).1 6).trans (((dats m 0 c).arrAt_in 6 rfl _).trans ((A_eq m c 6).trans (V_main_arg7 m c)))

/-- Argument 8 ends as launched. -/
theorem kept_arg8 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).1 7).trans (((dats m 0 c).arrAt_in 7 rfl _).trans ((A_eq m c 7).trans (V_main_arg8 m c)))

/-- Argument 9 ends as launched. -/
theorem kept_arg9 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).1 8).trans (((dats m 0 c).arrAt_in 8 rfl _).trans ((A_eq m c 8).trans (V_main_arg9 m c)))

/-- Argument 10 ends as launched. -/
theorem kept_arg10 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg10) = m ((c.tc : Thread nD τ).loc main_arg10) :=
  ((h c).1 9).trans (((dats m 0 c).arrAt_in 9 rfl _).trans ((A_eq m c 9).trans (V_main_arg10 m c)))

/-- Argument 11 ends as launched. -/
theorem kept_arg11 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg11) = m ((c.tc : Thread nD τ).loc main_arg11) :=
  ((h c).1 10).trans (((dats m 0 c).arrAt_in 10 rfl _).trans ((A_eq m c 10).trans (V_main_arg11 m c)))

/-- Argument 12 ends as launched. -/
theorem kept_arg12 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg12) = m ((c.tc : Thread nD τ).loc main_arg12) :=
  ((h c).1 11).trans (((dats m 0 c).arrAt_in 11 rfl _).trans ((A_eq m c 11).trans (V_main_arg12 m c)))

/-- Argument 13 ends as launched. -/
theorem kept_arg13 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg13) = m ((c.tc : Thread nD τ).loc main_arg13) :=
  ((h c).1 12).trans (((dats m 0 c).arrAt_in 12 rfl _).trans ((A_eq m c 12).trans (V_main_arg13 m c)))

/-- Argument 14 ends as launched. -/
theorem kept_arg14 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg14) = m ((c.tc : Thread nD τ).loc main_arg14) :=
  ((h c).1 13).trans (((dats m 0 c).arrAt_in 13 rfl _).trans ((A_eq m c 13).trans (V_main_arg14 m c)))

/-- Argument 15 ends as launched. -/
theorem kept_arg15 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg15) = m ((c.tc : Thread nD τ).loc main_arg15) :=
  ((h c).1 14).trans (((dats m 0 c).arrAt_in 14 rfl _).trans ((A_eq m c 14).trans (V_main_arg15 m c)))

/-- Argument 16 ends as launched. -/
theorem kept_arg16 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg16) = m ((c.tc : Thread nD τ).loc main_arg16) :=
  ((h c).2 main_arg16 (Pipeline.mem_restRefs_of main_arg16 (by decide) (by decide))).trans (W_main_arg16 m (dats m) c)

/-- Argument 17 ends as launched. -/
theorem kept_arg17 (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg17) = m ((c.tc : Thread nD τ).loc main_arg17) :=
  ((h c).2 main_arg17 (Pipeline.mem_restRefs_of main_arg17 (by decide) (by decide))).trans (W_main_arg17 m (dats m) c)

/-- THE RUN: the four results at the specification's functions, the arguments unchanged. -/
theorem run
    (hlt : ∀ (c : Dev nD) (b : Fin 16) (n : Fin 128), ((m ((c : Thread nD τ).loc main_arg4) : S16x128.Idx → BitVec 32) (ix2 b n)).toNat < 128) :
    θ_run defs (onTc (τ := τ) (main (F := Ideal))) ⟨m, fun _ => 0, ρ⟩ fun r => ∀ c : Dev nD,
      r.2.mem ((c.tc : Thread nD τ).loc main_v1_0)
        = Spec.nodeG (m ((c.tc : Thread nD τ).loc main_arg0)) (m ((c.tc : Thread nD τ).loc main_arg1)) (Spec.rowOf (m ((c.tc : Thread nD τ).loc main_arg4))) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15))
      ∧ r.2.mem ((c.tc : Thread nD τ).loc main_v1_1)
        = Spec.edgeG (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v10) = Spec.graphG (m ((c.tc : Thread nD τ).loc main_arg5)) (m ((c.tc : Thread nD τ).loc main_arg16)) (m ((c.tc : Thread nD τ).loc main_arg17))
      ∧ r.2.mem ((c.tc : Thread nD τ).loc main_v1_2) = Spec.adjG (m ((c.tc : Thread nD τ).loc main_arg3)) (Spec.rowOf (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => ⟨(post_node m r h c).trans (node_result m c (hlt c)),
      (post_edge m r h c).trans (edge_result m c),
      (post_graph m r h c).trans (graph_result m c),
      (post_adj m r h c).trans (adj_result m c (hlt c)),
      kept_arg0 m r h c, kept_arg1 m r h c, kept_arg2 m r h c, kept_arg3 m r h c, kept_arg4 m r h c, kept_arg5 m r h c, kept_arg6 m r h c, kept_arg7 m r h c, kept_arg8 m r h c, kept_arg9 m r h c, kept_arg10 m r h c, kept_arg11 m r h c, kept_arg12 m r h c, kept_arg13 m r h c, kept_arg14 m r h c, kept_arg15 m r h c, kept_arg16 m r h c, kept_arg17 m r h c⟩) (run_main m ρ)

end Cert.KernelIdeal.KV

end
-- ==== Proof.lean ====
/-
  The certificate's claim for the fused graph encoder.

  The kernel (one pallas_call over the 16 batch entries, with the pointer words clipped before it and the graph
  features computed after it) and the reference compute the same four arrays over the extended reals, provided every
  pointer word names a node, 0 ≤ pi < 128: then clipping is the identity, the one-hot matrix product
  onehot(pi) · W_pi is the row gather W_pi[pi] (0 · x = 0 and 1 · x = x for every extended real, and a sum with one
  nonzero term is that term), and the kernel's one-hot rows are the reference's; the edge features differ only in the
  grouping of a sum, the graph features are the same host operations, and the adjacency is the same indicator of
  eye + symmetric pointer relation + symmetric edge mask.
  The three frames are the generated runs; the idealization rewrote nothing, so `preserves` is trivial.
-/
import proofs.«404626_j31421980738061_3_alg».proof.Defs
import proofs.«404626_j31421980738061_3_alg».proof.Proof.Gen.Kernel
import proofs.«404626_j31421980738061_3_alg».proof.Proof.Gen.Kernel.Skeleton
import proofs.«404626_j31421980738061_3_alg».proof.Proof.Gen.Kernel.Launch
import proofs.«404626_j31421980738061_3_alg».proof.Proof.Gen.Kernel.Points
import proofs.«404626_j31421980738061_3_alg».proof.Proof.Gen.Kernel.Frame
import proofs.«404626_j31421980738061_3_alg».proof.Proof.Gen.KernelIdeal
import proofs.«404626_j31421980738061_3_alg».proof.Proof.Gen.KernelIdeal.Skeleton
import proofs.«404626_j31421980738061_3_alg».proof.Proof.Gen.KernelIdeal.Launch
import proofs.«404626_j31421980738061_3_alg».proof.Proof.Gen.KernelIdeal.Points
import proofs.«404626_j31421980738061_3_alg».proof.Proof.Gen.KernelIdeal.Frame
import proofs.«404626_j31421980738061_3_alg».proof.Proof.Gen.ReferenceIdeal
import proofs.«404626_j31421980738061_3_alg».proof.Proof.RefRun
import proofs.«404626_j31421980738061_3_alg».proof.Proof.RefRead
import proofs.«404626_j31421980738061_3_alg».proof.Proof.Gen.Pre_finite_inputs
import proofs.«404626_j31421980738061_3_alg».proof.Proof.Spec
import proofs.«404626_j31421980738061_3_alg».proof.Proof.PreDecode
import proofs.«404626_j31421980738061_3_alg».proof.Proof.RefValue
import proofs.«404626_j31421980738061_3_alg».proof.Proof.KRun
import Idealize.ShloMosaic.Adequacy
import Idealize.ShloMosaic.Init

set_option maxRecDepth 16384

noncomputable section

namespace Cert.Proof

open Idealize.ShloMosaic Idealize.ShloMosaic.ValueIdx Idealize.SL.Sem

/-- The word-level kernel runs and leaves its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run, with the four results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The two idealized programs end with equal results: each result of either is the specification's function of the
    arguments, the pointer words being in range by the precondition. -/
theorem algebraic : Cert.algebraic_KernelIdeal_ReferenceIdeal := by
  intro m ρ m' ρ' hpre hagree
  have hlt : ∀ (c : Dev Cert.KernelIdeal.nD) (b : Fin 16) (n : Fin 128),
      ((m ((c.tc : Thread Cert.KernelIdeal.nD Cert.KernelIdeal.τ).loc Cert.KernelIdeal.main_arg4) : Cert.KernelIdeal.S16x128.Idx → BitVec 32) (ix2 b n)).toNat < 128 :=
    fun c b n => Cert.Pre_finite_inputs.Decode.pointer_lt _ _ _ _ _ _ _ _ _ _ _ _ _ _ _ _ _ _ (hpre c) b n
  refine ⟨_, _, _, _, Cert.KernelIdeal.KV.run m ρ hlt, ?_⟩
  refine (θ_run Cert.ReferenceIdeal.defs _ _).mono (fun r h c => ?_) (Cert.ReferenceIdeal.ValueP.run (F := Ideal) m' ρ')
  obtain ⟨a0, a1, a2, a3, a4, a5, a6, a7, a8, a9, a10, a11, a12, a13, a14, a15, a16, a17⟩ := hagree c
  obtain ⟨h30, h49, h58, h81, hargs⟩ := h c
  have hrow : ∀ (b : Fin 16) (n : Fin 128),
      ((m' ((c.tc : Thread Cert.ReferenceIdeal.nD Cert.ReferenceIdeal.τ).loc Cert.ReferenceIdeal.main_arg4) : Cert.ReferenceIdeal.S16x128.Idx → BitVec 32) (ix2 b n))
        = BitVec.ofNat 32 (Spec.rowOf (m ((c.tc : Thread Cert.KernelIdeal.nD Cert.KernelIdeal.τ).loc Cert.KernelIdeal.main_arg4)) b n).val := by
    intro b n
    rw [a4]
    exact Spec.word_rowOf _ b n (hlt c b n)
  refine ⟨?_, ?_, ?_, ?_, hargs⟩
  · rw [h30, Cert.ReferenceIdeal.ReadP.val_main_v30_eq, Cert.ReferenceIdeal.RefValue.ref_node _ _ _ _ _ _ _ _ _ (Spec.rowOf (m ((c.tc : Thread Cert.KernelIdeal.nD Cert.KernelIdeal.τ).loc Cert.KernelIdeal.main_arg4))) hrow,
      a0, a1, a6, a7, a8, a9, a14, a15]
  · rw [h49, Cert.ReferenceIdeal.ReadP.val_main_v49_eq, Cert.ReferenceIdeal.RefValue.ref_edge, a2, a3, a10, a11, a12, a13]
  · rw [h58, Cert.ReferenceIdeal.ReadP.val_main_v58_eq, Cert.ReferenceIdeal.RefValue.ref_graph, a5, a16, a17]
  · rw [h81, Cert.ReferenceIdeal.ReadP.val_main_v81_eq, Cert.ReferenceIdeal.RefValue.ref_adj _ _ (Spec.rowOf (m ((c.tc : Thread Cert.KernelIdeal.nD Cert.KernelIdeal.τ).loc Cert.KernelIdeal.main_arg4))) hrow, a3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
